-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S48x262144 : Shape := ⟨2, ![48, 262144]⟩
abbrev S48x256 : Shape := ⟨2, ![48, 256]⟩
abbrev S8x2048 : Shape := ⟨2, ![8, 2048]⟩
abbrev S8x256 : Shape := ⟨2, ![8, 256]⟩
abbrev S8x2048x1 : Shape := ⟨3, ![8, 2048, 1]⟩
abbrev S1x1x128 : Shape := ⟨3, ![1, 1, 128]⟩
abbrev S8x2048x128 : Shape := ⟨3, ![8, 2048, 128]⟩
abbrev S8x128 : Shape := ⟨2, ![8, 128]⟩
abbrev S16x3x256 : Shape := ⟨3, ![16, 3, 256]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S48x262144, .f32⟩
  | .hbm, ⟨3, _⟩ => ⟨S48x256, .f32⟩
  | .hbm, ⟨4, _⟩ => ⟨S16x3x256, .f32⟩
  | .hbm, ⟨5, _⟩ => ⟨S_, .f32⟩
  | .hbm, ⟨6, _⟩ => ⟨S16x3x256, .f32⟩
  | .hbm, ⟨7, _⟩ => ⟨S16x3x256, .f32⟩
  | .hbm, ⟨8, _⟩ => ⟨S48x262144, .f32⟩
  | .hbm, ⟨9, _⟩ => ⟨S48x256, .f32⟩
  | .hbm, ⟨10, _⟩ => ⟨S16x3x256, .f32⟩
  | .hbm, ⟨11, _⟩ => ⟨S_, .f32⟩
  | .hbm, ⟨12, _⟩ => ⟨S16x3x256, .f32⟩
  | .hbm, ⟨13, _⟩ => ⟨S16x3x256, .f32⟩
  | .hbm, ⟨14, _⟩ => ⟨S16x3x256, .f32⟩
  | .hbm, ⟨15, _⟩ => ⟨S16x3x256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S8x2048, .f32⟩
  | .local _ .vmem, ⟨1, _⟩ => ⟨S8x2048, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x2048, .f32⟩
  | .local _ .vmem, ⟨6, _⟩ => ⟨S8x2048, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![6, 128], ![false, false]⟩

def k0_cond2 (i : grid0.Coords) : BitVec 1 :=
  let arg1 : BitVec 32 := BitVec.ofNat 32 (i 1).val
  let c127_i32 : BitVec 32 := 127#32
  let v41 : BitVec 1 := Scalar.cmpi .eq arg1 c127_i32
  let v42 : BitVec 32 := Scalar.extui v41
  let c0_i32_14 : BitVec 32 := 0#32
  let v43 : BitVec 1 := Scalar.cmpi .ne v42 c0_i32_14
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![6, 128], ![false, false]⟩

def k1_cond2 (i : grid1.Coords) : BitVec 1 :=
  let arg1 : BitVec 32 := BitVec.ofNat 32 (i 1).val
  let c127_i32 : BitVec 32 := 127#32
  let v41 : BitVec 1 := Scalar.cmpi .eq arg1 c127_i32
  let v42 : BitVec 32 := Scalar.extui v41
  let c0_i32_14 : BitVec 32 := 0#32
  let v43 : BitVec 1 := Scalar.cmpi .ne v42 c0_i32_14
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

class Facts₀ : Prop where
  shapeCasts_S16x3x512x512_S48x262144 : S16x3x512x512.ShapeCasts S48x262144
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  shapeCasts_S8x2048_S8x2048x1 : S8x2048.ShapeCasts S8x2048x1
  iota_S1x1x128_d2_w32 : S1x1x128.Iotas .tc 32 [2]
  broadcasts_S8x2048x1_S8x2048x128 : S8x2048x1.Broadcasts S8x2048x128
  broadcasts_S1x1x128_S8x2048x128 : S1x1x128.Broadcasts S8x2048x128
  natLt_1_32 : 1 < 32
  reduces_S8x2048x128_S8x128 : S8x2048x128.Reduces [1] S8x128
  inb_S8x256_S8x128_0_0 : ∀ a, (![0, 0] : Fin 2 → Nat) a + S8x128.size a ≤ S8x256.size a
  h_S8x128 : 0 < S8x128.numel
  shapeCasts_S8x128_S8x128 : S8x128.ShapeCasts S8x128
  inb_S8x256_S8x128_0_128 : ∀ a, (![0, 128] : Fin 2 → Nat) a + S8x128.size a ≤ S8x256.size a
  shapeCasts_S48x256_S16x3x256 : S48x256.ShapeCasts S16x3x256
  bcast_S_S16x3x256 : S_.BroadcastsInDim S16x3x256 (![] : Fin 0 → Fin S16x3x256.rank)
  reducesTo_S16x3x256_S_d0_1_2 : S16x3x256.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S48x262144.size a
  hwx0_0 : ∀ i : grid0.Coords, EltTy.bits .f32 = 32 ∨ (Rect.block (s := S48x262144) S8x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S48x256.size a
  hwx0_1 : ∀ i : grid0.Coords, EltTy.bits .f32 = 32 ∨ (Rect.block (s := S48x256) S8x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x2048.size a ≤ S48x262144.size a
  hwx1_0 : ∀ i : grid1.Coords, EltTy.bits .f32 = 32 ∨ (Rect.block (s := S48x262144) S8x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S48x256.size a
  hwx1_1 : ∀ i : grid1.Coords, EltTy.bits .f32 = 32 ∨ (Rect.block (s := S48x256) S8x256.size (cc1_transform_1 i) (hinb1_1 i)).WholeWords (EltTy.packing .f32)

variable [Facts₀]

abbrev win0_0 : Pipeline.Window sig grid0 :=
  Pipeline.Window.ofSpec (Memref.whole main_v0) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v5) S8x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S_ : Shape := ⟨0, ![]⟩
abbrev S48 : Shape := ⟨1, ![48]⟩
abbrev S48x1 : Shape := ⟨2, ![48, 1]⟩
abbrev S48x262144 : Shape := ⟨2, ![48, 262144]⟩
abbrev S12582912 : Shape := ⟨1, ![12582912]⟩
abbrev S12288 : Shape := ⟨1, ![12288]⟩
abbrev S12582912x1 : Shape := ⟨2, ![12582912, 1]⟩
abbrev S16x3x256 : Shape := ⟨3, ![16, 3, 256]⟩

abbrev nBuf : Space → Nat
  | .hbm => 84
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .f32⟩
  | .hbm, ⟨3, _⟩ => ⟨S16x3x512x512, .f32⟩
  | .hbm, ⟨4, _⟩ => ⟨S16x3x512x512, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S16x3x512x512, .f32⟩
  | .hbm, ⟨9, _⟩ => ⟨S16x3x512x512, .f32⟩
  | .hbm, ⟨10, _⟩ => ⟨S_, .f32⟩
  | .hbm, ⟨11, _⟩ => ⟨S16x3x512x512, .f32⟩
  | .hbm, ⟨12, _⟩ => ⟨S16x3x512x512, .f32⟩
  | .hbm, ⟨13, _⟩ => ⟨S16x3x512x512, .i32⟩
  | .hbm, ⟨14, _⟩ => ⟨S48, .i32⟩
  | .hbm, ⟨15, _⟩ => ⟨S48x1, .i32⟩
  | .hbm, ⟨16, _⟩ => ⟨S_, .i32⟩
  | .hbm, ⟨17, _⟩ => ⟨S48x1, .i32⟩
  | .hbm, ⟨18, _⟩ => ⟨S48x1, .i32⟩
  | .hbm, ⟨19, _⟩ => ⟨S48x262144, .i32⟩
  | .hbm, ⟨20, _⟩ => ⟨S48x262144, .i32⟩
  | .hbm, ⟨21, _⟩ => ⟨S48x262144, .i32⟩
  | .hbm, ⟨22, _⟩ => ⟨S12582912, .i32⟩
  | .hbm, ⟨23, _⟩ => ⟨S_, .f32⟩
  | .hbm, ⟨24, _⟩ => ⟨S12288, .f32⟩
  | .hbm, ⟨25, _⟩ => ⟨S_, .i32⟩
  | .hbm, ⟨26, _⟩ => ⟨S12582912, .i32⟩
  | .hbm, ⟨27, _⟩ => ⟨S12582912, .i1⟩
  | .hbm, ⟨28, _⟩ => ⟨S_, .i32⟩
  | .hbm, ⟨29, _⟩ => ⟨S12582912, .i32⟩
  | .hbm, ⟨30, _⟩ => ⟨S12582912, .i32⟩
  | .hbm, ⟨31, _⟩ => ⟨S12582912, .i32⟩
  | .hbm, ⟨32, _⟩ => ⟨S12582912x1, .i32⟩
  | .hbm, ⟨33, _⟩ => ⟨S_, .f32⟩
  | .hbm, ⟨34, _⟩ => ⟨S12582912, .f32⟩
  | .hbm, ⟨35, _⟩ => ⟨S12288, .f32⟩
  | .hbm, ⟨36, _⟩ => ⟨S16x3x256, .f32⟩
  | .hbm, ⟨37, _⟩ => ⟨S_, .f32⟩
  | .hbm, ⟨38, _⟩ => ⟨S16x3x256, .f32⟩
  | .hbm, ⟨39, _⟩ => ⟨S16x3x256, .f32⟩
  | .hbm, ⟨40, _⟩ => ⟨S_, .f32⟩
  | .hbm, ⟨41, _⟩ => ⟨S16x3x512x512, .f32⟩
  | .hbm, ⟨42, _⟩ => ⟨S16x3x512x512, .f32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S16x3x512x512, .f32⟩
  | .hbm, ⟨47, _⟩ => ⟨S16x3x512x512, .f32⟩
  | .hbm, ⟨48, _⟩ => ⟨S_, .f32⟩
  | .hbm, ⟨49, _⟩ => ⟨S16x3x512x512, .f32⟩
  | .hbm, ⟨50, _⟩ => ⟨S16x3x512x512, .f32⟩
  | .hbm, ⟨51, _⟩ => ⟨S16x3x512x512, .i32⟩
  | .hbm, ⟨52, _⟩ => ⟨S48, .i32⟩
  | .hbm, ⟨53, _⟩ => ⟨S48x1, .i32⟩
  | .hbm, ⟨54, _⟩ => ⟨S_, .i32⟩
  | .hbm, ⟨55, _⟩ => ⟨S48x1, .i32⟩
  | .hbm, ⟨56, _⟩ => ⟨S48x1, .i32⟩
  | .hbm, ⟨57, _⟩ => ⟨S48x262144, .i32⟩
  | .hbm, ⟨58, _⟩ => ⟨S48x262144, .i32⟩
  | .hbm, ⟨59, _⟩ => ⟨S48x262144, .i32⟩
  | .hbm, ⟨60, _⟩ => ⟨S12582912, .i32⟩
  | .hbm, ⟨61, _⟩ => ⟨S_, .f32⟩
  | .hbm, ⟨62, _⟩ => ⟨S12288, .f32⟩
  | .hbm, ⟨63, _⟩ => ⟨S_, .i32⟩
  | .hbm, ⟨64, _⟩ => ⟨S12582912, .i32⟩
  | .hbm, ⟨65, _⟩ => ⟨S12582912, .i1⟩
  | .hbm, ⟨66, _⟩ => ⟨S_, .i32⟩
  | .hbm, ⟨67, _⟩ => ⟨S12582912, .i32⟩
  | .hbm, ⟨68, _⟩ => ⟨S12582912, .i32⟩
  | .hbm, ⟨69, _⟩ => ⟨S12582912, .i32⟩
  | .hbm, ⟨70, _⟩ => ⟨S12582912x1, .i32⟩
  | .hbm, ⟨71, _⟩ => ⟨S_, .f32⟩
  | .hbm, ⟨72, _⟩ => ⟨S12582912, .f32⟩
  | .hbm, ⟨73, _⟩ => ⟨S12288, .f32⟩
  | .hbm, ⟨74, _⟩ => ⟨S16x3x256, .f32⟩
  | .hbm, ⟨75, _⟩ => ⟨S_, .f32⟩
  | .hbm, ⟨76, _⟩ => ⟨S16x3x256, .f32⟩
  | .hbm, ⟨77, _⟩ => ⟨S16x3x256, .f32⟩
  | .hbm, ⟨78, _⟩ => ⟨S16x3x256, .f32⟩
  | .hbm, ⟨79, _⟩ => ⟨S16x3x256, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_c_9 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_11 : Ref sig .tc := ⟨.hbm, 61, rfl⟩
abbrev main_v36 : Ref sig .tc := ⟨.hbm, 62, rfl⟩
abbrev main_c_12 : Ref sig .tc := ⟨.hbm, 63, rfl⟩
abbrev main_v37 : Ref sig .tc := ⟨.hbm, 64, rfl⟩
abbrev main_v38 : Ref sig .tc := ⟨.hbm, 65, rfl⟩
abbrev main_c_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_15 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_16 : Ref sig .tc := ⟨.hbm, 80, rfl⟩
abbrev main_v50 : Ref sig .tc := ⟨.hbm, 81, rfl⟩
abbrev main_cst_17 : Ref sig .tc := ⟨.hbm, 82, rfl⟩
abbrev main_v51 : Ref sig .tc := ⟨.hbm, 83, rfl⟩

abbrev nD : Nat := 1
abbrev τ : Topo := Topo.v7x

variable {F : FTy → Type} [FloatOps F]

class Facts₀ : Prop where
  bcast_S_S16x3x512x512 : S_.BroadcastsInDim S16x3x512x512 (![] : Fin 0 → Fin S16x3x512x512.rank)
  bcast_S48_S48x1_0 : S48.BroadcastsInDim S48x1 (![0] : Fin 1 → Fin S48x1.rank)
  bcast_S_S48x1 : S_.BroadcastsInDim S48x1 (![] : Fin 0 → Fin S48x1.rank)
  shapeCasts_S16x3x512x512_S48x262144 : S16x3x512x512.ShapeCasts S48x262144
  bcast_S48x1_S48x262144_0_1 : S48x1.BroadcastsInDim S48x262144 (![0, 1] : Fin 2 → Fin S48x262144.rank)
  shapeCasts_S48x262144_S12582912 : S48x262144.ShapeCasts S12582912
  bcast_S_S12288 : S_.BroadcastsInDim S12288 (![] : Fin 0 → Fin S12288.rank)
  bcast_S_S12582912 : S_.BroadcastsInDim S12582912 (![] : Fin 0 → Fin S12582912.rank)
  bcast_S12582912_S12582912x1_0 : S12582912.BroadcastsInDim S12582912x1 (![0] : Fin 1 → Fin S12582912x1.rank)
  shapeCasts_S12288_S16x3x256 : S12288.ShapeCasts S16x3x256
  bcast_S_S16x3x256 : S_.BroadcastsInDim S16x3x256 (![] : Fin 0 → Fin S16x3x256.rank)
  reducesTo_S16x3x256_S_d0_1_2 : S16x3x256.ReducesTo [0, 1, 2] S_
  h_S_ : 0 < S_.numel
  scatter_S12288_S12582912x1_S12582912_n_0_0_1_wf : ScatterDims.WF S12288 S12582912x1 S12582912 [] [0] [0] 1

variable [Facts₀]

def scatter_S12288_S12582912x1_S12582912_n_0_0_1 : ScatterDims S12288 S12582912x1 S12582912 where
  updateWindowDims := []
  insertedWindowDims := [0]
  scatterDimsToOperandDims := [0]
  indexVectorDim := 1
  wf := scatter_S12288_S12582912x1_S12582912_n_0_0_1_wf

class Facts : Prop extends Facts₀ where

variable [Facts]
-- ==== Proof.K.Shared0.lean ====
/-
  First pallas_call: what its three control cases share.

  The grid has 6 × 128 points; point t works on plane group t / 128 and pixel tile t % 128.  The body resets the
  accumulator at the first tile of a group (t % 128 = 0) and copies it to the output block at the last
  (t % 128 = 127); both conditions are decided over the grid in closed form.  The output window is idle except at
  the last tile, where it is written back.  The region's invariant holds the accumulator beside the second
  pallas_call's staging and accumulator buffers, which this region never touches.
-/
import proofs.«181613_j80625126080915_1_alg».proof.Proof.Gen.Kernel.Launch
import proofs.«181613_j80625126080915_1_alg».proof.Proof.Gen.Kernel.Skeleton
import proofs.«181613_j80625126080915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions, in closed form over the grid -/

/-- The reset condition: the pixel-tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 128 = 0 :=
  (by decide +kernel : ∀ t : Fin grid0.N, cond0_0 (grid0.coords t) ↔ t.val % 128 = 0)

/-- The write-out condition: the pixel-tile coordinate is the last, 127. -/
abbrev cond0_1 (i : grid0.Coords) : Prop := k0_cond2 i = 1#1
theorem hcond0_1 : ∀ t : Fin cfg0.N, cond0_1 (grid0.coords t) ↔ t.val % 128 = 127 :=
  (by decide +kernel : ∀ t : Fin grid0.N, cond0_1 (grid0.coords t) ↔ t.val % 128 = 127)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S8x256 .f32 := (Memref.whole cc0_stg1_0 : Memref sig .tc .vmem S8x256 .f32).view
abbrev ms0_0 (t : Fin cfg0.N) : Memref sig .tc .vmem S8x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S8x256 .f32 := Memref.whole cc0_scratch0
abbrev VS0_0 : View sig .tc .vmem S8x256 .f32 := scM0_0.view

/-- The scoped buffers of the other pallas_call, each whole at some contents: this region hands them through. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.Kernel.Frm

end
-- ==== Proof.K.RunA0.lean ====
/-
  First pallas_call, first tile of a plane group (reset, no write-out): the body's run on whole memrefs.  The input
  tile is read, the output buffer is handed back untouched, and the accumulator — whatever it held — ends with the
  pieces the body stored: zeros everywhere, then the two half-rows of hits added to what the zeros read back.
-/
import proofs.«181613_j80625126080915_1_alg».proof.Proof.K.Shared0

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator in this case, with the body's triple. -/
noncomputable def kernelRun0_A (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i)
    (x0 : Vec F S8x2048 .f32) :
    Σ' (L1 : List (View.Piece (Elt F) S8x256 .f32)), { LS0 : List (View.Piece (Elt F) S8x256 .f32) //
      ∀ (xi1 : Vec F S8x256 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frm

end
-- ==== Proof.K.RunB0.lean ====
/-
  First pallas_call, a middle tile of a plane group (no reset, no write-out): the body's run on whole memrefs.  The
  accumulator holds what the tile before left; the body adds this tile's hits to each half and stores them back.
-/
import proofs.«181613_j80625126080915_1_alg».proof.Proof.K.RunA0

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator in this case, with the body's triple. -/
noncomputable def kernelRun0_B (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i)
    (x0 : Vec F S8x2048 .f32) (xs0 : Vec F S8x256 .f32) :
    Σ' (L1 : List (View.Piece (Elt F) S8x256 .f32)), { LS0 : List (View.Piece (Elt F) S8x256 .f32) //
      ∀ (xi1 : Vec F S8x256 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frm

end
-- ==== Proof.K.RunC0.lean ====
/-
  First pallas_call, last tile of a plane group (no reset, write-out): the body's run on whole memrefs.  The
  accumulator is updated as at a middle tile and then copied whole into the output block.
-/
import proofs.«181613_j80625126080915_1_alg».proof.Proof.K.RunB0

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block and in the accumulator in this case, with the body's triple. -/
noncomputable def kernelRun0_C (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) :
    Σ' (L1 : List (View.Piece (Elt F) S8x256 .f32)), { LS0 : List (View.Piece (Elt F) S8x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Frm

end
-- ==== Proof.K.Region0.lean ====
/-
  First pallas_call: what the accumulator and the output block hold after every grid point, the pipeline's proof
  data, and the body obligation.

  After point t the accumulator holds the case's stored pieces read back: at the first tile of a plane group the
  pieces over the zero fill, at every later tile the pieces over what the tile before left.  The output block is
  stored only at the last tile of a group, as a copy of the accumulator.  The region's invariant carries the
  accumulator at these contents from point to point (anything before the first point), beside the buffers the
  region hands through; the entry contents `V` of the core's buffers are a parameter.
-/
import proofs.«181613_j80625126080915_1_alg».proof.Proof.K.RunC0

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First tile: nothing is stored into the output block (a placeholder nothing consults). -/
def out0_A_1 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i)
    (x0 : Vec F S8x2048 .f32) : Vec F S8x256 .f32 :=
  VO0_1.read (Elt F) (VO0_1.writes (Elt F) VO0_1.junk (kernelRun0_A c i arg2 harg2 arg3 harg3 arg4 harg4 hc0 hc1 x0).1)

/-- First tile: the accumulator's pieces cover it. -/
theorem scover0_A_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i)
    (x0 : Vec F S8x2048 .f32) (y : S8x256.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S8x128.size (by sl_kernel_rfl) y

/-- First tile: what the accumulator holds afterwards. -/
def sout0_A_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i)
    (x0 : Vec F S8x2048 .f32) : Vec F S8x256 .f32 :=
  VS0_0.read (Elt F) (VS0_0.writes (Elt F) VS0_0.junk (kernelRun0_A c i arg2 harg2 arg3 harg3 arg4 harg4 hc0 hc1 x0).2.1)

/-- Middle tile: nothing is stored into the output block. -/
def out0_B_1 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i)
    (x0 : Vec F S8x2048 .f32) (xs0 : Vec F S8x256 .f32) : Vec F S8x256 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i)
    (x0 : Vec F S8x2048 .f32) (xs0 : Vec F S8x256 .f32) (y : S8x256.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S8x128.size (by sl_kernel_rfl) y

/-- Middle tile: what the accumulator holds afterwards, over what it held before (`xs0`). -/
def sout0_B_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i)
    (x0 : Vec F S8x2048 .f32) (xs0 : Vec F S8x256 .f32) : Vec F S8x256 .f32 :=
  VS0_0.read (Elt F) (VS0_0.writes (Elt F) VS0_0.junk (kernelRun0_B c i arg2 harg2 arg3 harg3 arg4 harg4 hc0 hc1 x0 xs0).2.1)

/-- Last tile: the output block's one whole store covers it. -/
theorem cover0_C_1 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) (y : S8x256.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S8x256.size (by sl_kernel_rfl) y

/-- Last tile: what the output block holds afterwards. -/
def out0_C_1 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) : Vec F S8x256 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) (y : S8x256.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S8x128.size (by sl_kernel_rfl) y

/-- Last tile: what the accumulator holds afterwards. -/
def sout0_C_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) : Vec F S8x256 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- After the body at position `n`: (the output block, the accumulator).  The case the closed forms select at
    `n`, on the point's input tile, the accumulator read at what position `n - 1` left. -/
def outsAt0 (c : Dev nD) : (n : ℕ) → n < cfg0.N → Vec F S8x256 .f32 × Vec F S8x256 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 128 = 0 then
      if h1 : (n + 1) % 128 = 127 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 128 = 127 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- At a first tile. -/
theorem outsAt0_A (c : Dev nD) (t : Fin cfg0.N) (h0 : t.val % 128 = 0) (h1 : ¬t.val % 128 = 127) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- At a middle tile: over what the point before left. -/
theorem outsAt0_B (c : Dev nD) (t : Fin cfg0.N) (h0 : ¬t.val % 128 = 0) (h1 : ¬t.val % 128 = 127) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt0_C (c : Dev nD) (t : Fin cfg0.N) (h0 : ¬t.val % 128 = 0) (h1 : t.val % 128 = 127) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class invariant (the accumulator at anything); afterwards the
    accumulator at what the point before left, the handed-through buffers and the generator register at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The proof data on core `c`: the arrays as the region finds them; after the body at point `t` the input's buffer
    at its tile and the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the
    accumulator at what the point before left (at anything at the very first point) and takes it back at this
    point's contents; the handed-through buffers, the generator register and the core's dues pass unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 768 := lt_of_lt_of_eq t.isLt (show cfg0.N = 768 from N_0)
  by_cases h0 : t.val % 128 = 0
  · by_cases h1 : t.val % 128 = 127
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _)
            iexact Hrest
          iexact Hg
        isplitl [Ho]; · iexact Ho
        isplitl [H0]; · iexact H0
        iexists _; iexact H1
      · rw [PhiS0_castSucc V c t, PhiS0_pos V c _ _ hz]
        iintro ⟨⟨⟨HS0, Hrest⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _)
            iexact Hrest
          iexact Hg
        isplitl [Ho]; · iexact Ho
        isplitl [H0]; · iexact H0
        iexists _; iexact H1
  · by_cases h1 : t.val % 128 = 127
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _)
            iexact Hrest
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _)
            iexact Hrest
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 768 := N_0; omega)

end Cert.Kernel.Frm

end
-- ==== Proof.K.Shared1.lean ====
/-
  Second pallas_call: what its three control cases share.

  The grid has 6 × 128 points; point t works on plane group t / 128 and pixel tile t % 128.  The body resets the
  accumulator at the first tile of a group (t % 128 = 0) and copies it to the output block at the last
  (t % 128 = 127); both conditions are decided over the grid in closed form.  The output window is idle except at
  the last tile, where it is written back.  The region's invariant holds the accumulator beside the first
  pallas_call's staging and accumulator buffers, which this region never touches.
-/
import proofs.«181613_j80625126080915_1_alg».proof.Proof.Gen.Kernel.Launch
import proofs.«181613_j80625126080915_1_alg».proof.Proof.Gen.Kernel.Skeleton
import proofs.«181613_j80625126080915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions, in closed form over the grid -/

/-- The reset condition: the pixel-tile coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 128 = 0 :=
  (by decide +kernel : ∀ t : Fin grid1.N, cond1_0 (grid1.coords t) ↔ t.val % 128 = 0)

/-- The write-out condition: the pixel-tile coordinate is the last, 127. -/
abbrev cond1_1 (i : grid1.Coords) : Prop := k1_cond2 i = 1#1
theorem hcond1_1 : ∀ t : Fin cfg1.N, cond1_1 (grid1.coords t) ↔ t.val % 128 = 127 :=
  (by decide +kernel : ∀ t : Fin grid1.N, cond1_1 (grid1.coords t) ↔ t.val % 128 = 127)

/-! ## Where the windows are idle -/

theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel

/-! ## The memrefs the body is called with -/

/-- One staging buffer of the output window, through which its contents are stated. -/
abbrev VO1_1 : View sig .tc .vmem S8x256 .f32 := (Memref.whole cc1_stg1_0 : Memref sig .tc .vmem S8x256 .f32).view
abbrev ms1_0 (t : Fin cfg1.N) : Memref sig .tc .vmem S8x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256 .f32 := win1_1.stage (cfg1.slots t 1)
abbrev hs1_1 (t : Fin cfg1.N) : (ms1_1 t).IsWhole := hstage1_1 ((cfg1.slots t 1).cast nbuf1_1)
/-- The accumulator: a whole scoped buffer of the kernel's own. -/
abbrev scM1_0 : Memref sig .tc .vmem S8x256 .f32 := Memref.whole cc1_scratch0
abbrev VS1_0 : View sig .tc .vmem S8x256 .f32 := scM1_0.view

/-- The scoped buffers of the other pallas_call, each whole at some contents: this region hands them through. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The class invariant with the accumulator as a memref owned at some contents: the same separating conjunction,
    the accumulator (listed last among the core's scoped buffers) brought to the front. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA rest1; rw [scopedRest1_eq]; simp only [scM1_0, owns_whole]
  refine Entails.antisymm ?_ ?_
  · show (_ : sProp 𝕄) ⊢ _
    iintro ⟨⟨H1, H2, H3, H4, H5, H6⟩, Hg⟩
    isplitl [H1 H2 H3 H4 H5 H6]
    · isplitl [H6]; · iexact H6
      isplitl [H1]; · iexact H1
      isplitl [H2]; · iexact H2
      isplitl [H3]; · iexact H3
      isplitl [H4]; · iexact H4
      iexact H5
    iexact Hg
  · show (_ : sProp 𝕄) ⊢ _
    iintro ⟨⟨H6, H1, H2, H3, H4, H5⟩, Hg⟩
    isplitl [H1 H2 H3 H4 H5 H6]
    · isplitl [H1]; · iexact H1
      isplitl [H2]; · iexact H2
      isplitl [H3]; · iexact H3
      isplitl [H4]; · iexact H4
      isplitl [H5]; · iexact H5
      iexact H6
    iexact Hg

end Cert.Kernel.Frm

end
-- ==== Proof.K.RunA1.lean ====
/-
  Second pallas_call, first tile of a plane group (reset, no write-out): the body's run on whole memrefs.  The input
  tile is read, the output buffer is handed back untouched, and the accumulator — whatever it held — ends with the
  pieces the body stored: zeros everywhere, then the two half-rows of hits added to what the zeros read back.
-/
import proofs.«181613_j80625126080915_1_alg».proof.Proof.K.Shared1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator in this case, with the body's triple. -/
noncomputable def kernelRun1_A (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i)
    (x0 : Vec F S8x2048 .f32) :
    Σ' (L1 : List (View.Piece (Elt F) S8x256 .f32)), { LS0 : List (View.Piece (Elt F) S8x256 .f32) //
      ∀ (xi1 : Vec F S8x256 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__hist_kernel i arg2 harg2 arg3 harg3 arg4 harg4) K } := by
  refine ⟨[], ?_, fun xi1 E K => ?run⟩
  case run =>
    simp only [cc1__hist_kernel_eq_skeleton]; unfold cc1__hist_kernel_skel
    simp only [k1_part1_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frm

end
-- ==== Proof.K.RunB1.lean ====
/-
  Second pallas_call, a middle tile of a plane group (no reset, no write-out): the body's run on whole memrefs.  The
  accumulator holds what the tile before left; the body adds this tile's hits to each half and stores them back.
-/
import proofs.«181613_j80625126080915_1_alg».proof.Proof.K.RunA1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator in this case, with the body's triple. -/
noncomputable def kernelRun1_B (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i)
    (x0 : Vec F S8x2048 .f32) (xs0 : Vec F S8x256 .f32) :
    Σ' (L1 : List (View.Piece (Elt F) S8x256 .f32)), { LS0 : List (View.Piece (Elt F) S8x256 .f32) //
      ∀ (xi1 : Vec F S8x256 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__hist_kernel i arg2 harg2 arg3 harg3 arg4 harg4) K } := by
  refine ⟨[], ?_, fun xi1 E K => ?run⟩
  case run =>
    simp only [cc1__hist_kernel_eq_skeleton]; unfold cc1__hist_kernel_skel
    simp only [k1_part1_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frm

end
-- ==== Proof.K.RunC1.lean ====
/-
  Second pallas_call, last tile of a plane group (no reset, write-out): the body's run on whole memrefs.  The
  accumulator is updated as at a middle tile and then copied whole into the output block.
-/
import proofs.«181613_j80625126080915_1_alg».proof.Proof.K.RunB1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block and in the accumulator in this case, with the body's triple. -/
noncomputable def kernelRun1_C (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) :
    Σ' (L1 : List (View.Piece (Elt F) S8x256 .f32)), { LS0 : List (View.Piece (Elt F) S8x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__hist_kernel i arg2 harg2 arg3 harg3 arg4 harg4) K } := by
  refine ⟨?_, ?_, fun E K => ?run⟩
  case run =>
    simp only [cc1__hist_kernel_eq_skeleton]; unfold cc1__hist_kernel_skel
    simp only [k1_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Frm

end
-- ==== Proof.K.Region1.lean ====
/-
  Second pallas_call: what the accumulator and the output block hold after every grid point, the pipeline's proof
  data, and the body obligation.

  After point t the accumulator holds the case's stored pieces read back: at the first tile of a plane group the
  pieces over the zero fill, at every later tile the pieces over what the tile before left.  The output block is
  stored only at the last tile of a group, as a copy of the accumulator.  The region's invariant carries the
  accumulator at these contents from point to point (anything before the first point), beside the buffers the
  region hands through; the entry contents `V` of the core's buffers are a parameter.
-/
import proofs.«181613_j80625126080915_1_alg».proof.Proof.K.RunC1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First tile: nothing is stored into the output block (a placeholder nothing consults). -/
def out1_A_1 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i)
    (x0 : Vec F S8x2048 .f32) : Vec F S8x256 .f32 :=
  VO1_1.read (Elt F) (VO1_1.writes (Elt F) VO1_1.junk (kernelRun1_A c i arg2 harg2 arg3 harg3 arg4 harg4 hc0 hc1 x0).1)

/-- First tile: the accumulator's pieces cover it. -/
theorem scover1_A_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i)
    (x0 : Vec F S8x2048 .f32) (y : S8x256.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S8x128.size (by sl_kernel_rfl) y

/-- First tile: what the accumulator holds afterwards. -/
def sout1_A_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i)
    (x0 : Vec F S8x2048 .f32) : Vec F S8x256 .f32 :=
  VS1_0.read (Elt F) (VS1_0.writes (Elt F) VS1_0.junk (kernelRun1_A c i arg2 harg2 arg3 harg3 arg4 harg4 hc0 hc1 x0).2.1)

/-- Middle tile: nothing is stored into the output block. -/
def out1_B_1 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i)
    (x0 : Vec F S8x2048 .f32) (xs0 : Vec F S8x256 .f32) : Vec F S8x256 .f32 :=
  VO1_1.read (Elt F) (VO1_1.writes (Elt F) VO1_1.junk (kernelRun1_B c i arg2 harg2 arg3 harg3 arg4 harg4 hc0 hc1 x0 xs0).1)

theorem scover1_B_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i)
    (x0 : Vec F S8x2048 .f32) (xs0 : Vec F S8x256 .f32) (y : S8x256.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S8x128.size (by sl_kernel_rfl) y

/-- Middle tile: what the accumulator holds afterwards, over what it held before (`xs0`). -/
def sout1_B_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i)
    (x0 : Vec F S8x2048 .f32) (xs0 : Vec F S8x256 .f32) : Vec F S8x256 .f32 :=
  VS1_0.read (Elt F) (VS1_0.writes (Elt F) VS1_0.junk (kernelRun1_B c i arg2 harg2 arg3 harg3 arg4 harg4 hc0 hc1 x0 xs0).2.1)

/-- Last tile: the output block's one whole store covers it. -/
theorem cover1_C_1 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) (y : S8x256.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S8x256.size (by sl_kernel_rfl) y

/-- Last tile: what the output block holds afterwards. -/
def out1_C_1 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) : Vec F S8x256 .f32 :=
  VO1_1.read (Elt F) (VO1_1.writes (Elt F) VO1_1.junk (kernelRun1_C c i arg2 harg2 arg3 harg3 arg4 harg4 hc0 hc1 x0 xs0).1)

theorem scover1_C_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) (y : S8x256.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S8x128.size (by sl_kernel_rfl) y

/-- Last tile: what the accumulator holds afterwards. -/
def sout1_C_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) : Vec F S8x256 .f32 :=
  VS1_0.read (Elt F) (VS1_0.writes (Elt F) VS1_0.junk (kernelRun1_C c i arg2 harg2 arg3 harg3 arg4 harg4 hc0 hc1 x0 xs0).2.1)

/-! ## What the output block and the accumulator hold after each point -/

/-- After the body at position `n`: (the output block, the accumulator).  The case the closed forms select at
    `n`, on the point's input tile, the accumulator read at what position `n - 1` left. -/
def outsAt1 (c : Dev nD) : (n : ℕ) → n < cfg1.N → Vec F S8x256 .f32 × Vec F S8x256 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 128 = 0 then
      if h1 : (n + 1) % 128 = 127 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 128 = 127 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

/-- At a first tile. -/
theorem outsAt1_A (c : Dev nD) (t : Fin cfg1.N) (h0 : t.val % 128 = 0) (h1 : ¬t.val % 128 = 127) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

/-- At a middle tile: over what the point before left. -/
theorem outsAt1_B (c : Dev nD) (t : Fin cfg1.N) (h0 : ¬t.val % 128 = 0) (h1 : ¬t.val % 128 = 127) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt1_C (c : Dev nD) (t : Fin cfg1.N) (h0 : ¬t.val % 128 = 0) (h1 : t.val % 128 = 127) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class invariant (the accumulator at anything); afterwards the
    accumulator at what the point before left, the handed-through buffers and the generator register at anything. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The pipeline's proof data -/

/-- The proof data on core `c`: the arrays as the region finds them; after the body at point `t` the input's buffer
    at its tile and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the closed forms say which case the point is in; the invariant hands the body the
    accumulator at what the point before left (at anything at the very first point) and takes it back at this
    point's contents; the handed-through buffers, the generator register and the core's dues pass unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 768 := lt_of_lt_of_eq t.isLt (show cfg1.N = 768 from N_1)
  by_cases h0 : t.val % 128 = 0
  · by_cases h1 : t.val % 128 = 127
    · exfalso; omega
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _)
            iexact Hrest
          iexact Hg
        isplitl [Ho]; · iexact Ho
        isplitl [H0]; · iexact H0
        iexists _; iexact H1
      · rw [PhiS1_castSucc V c t, PhiS1_pos V c _ _ hz]
        iintro ⟨⟨⟨HS0, Hrest⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _)
            iexact Hrest
          iexact Hg
        isplitl [Ho]; · iexact Ho
        isplitl [H0]; · iexact H0
        iexists _; iexact H1
  · by_cases h1 : t.val % 128 = 127
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [outsAt1_C V c t h0 h1]
      unfold out1_C_1 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _)
            iexact Hrest
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _)
            iexact Hrest
          iexact Hg
        isplitl [Ho]; · iexact Ho
        isplitl [H0]; · iexact H0
        iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 768 := N_1; omega)

end Cert.Kernel.Frm

end
-- ==== Proof.K.Run.lean ====
/-
  The run of the whole program: a stretch of host operations, the first pallas_call, a second stretch, the second
  pallas_call, a last stretch — five segments, each entered from what the one before it left.

  Between two segments a core holds every one of its unscoped buffers whole, at contents that are a fold through the
  program from the launch memory: a host stretch rewrites the buffers its operations write and keeps the rest; a
  pallas_call leaves its windows' arrays at what its write-backs make of them and keeps every other buffer.  Beside the
  buffers ride the core's generator register, at some state, and its dues, at nothing.  The run ends with every unscoped
  buffer at the last contents of the fold; neither argument array is written by any host operation or is a window's
  array of either call, so the fold at an argument walks back to the launch memory.
-/
import proofs.«181613_j80625126080915_1_alg».proof.Proof.K.Region0
import proofs.«181613_j80625126080915_1_alg».proof.Proof.K.Region1
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments -/

/-- Core `c`'s buffers at launch. -/
abbrev W0 : Dev nD → Valuation τ sig (Elt F) := fun c b => m ((c : Dev nD), b)
/-- After the first host stretch: what the first call is entered from. -/
abbrev W1 : Dev nD → Valuation τ sig (Elt F) := fun c => StableHlo.after hostOps0 (W0 m c)
/-- The same, read at the core's own references (the entry contents the first call's proof data take). -/
abbrev V1 : (c : Dev nD) → (b : Ref sig .tc) → Buf (Elt F) ((c : Thread nD τ).loc b) := fun c b => W1 m c b
/-- After the first call: its windows' arrays at what the write-backs of all its points leave (an input's array as
    entered), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m c b
/-- At the first call's exit each of its arrays holds what the call leaves, and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: what the second call is entered from. -/
abbrev W3 : Dev nD → Valuation τ sig (Elt F) := fun c => StableHlo.after hostOps1 (W2 m c)
/-- The same, read at the core's own references (the entry contents the second call's proof data take). -/
abbrev V3 : (c : Dev nD) → (b : Ref sig .tc) → Buf (Elt F) ((c : Thread nD τ).loc b) := fun c b => W3 m c b
/-- After the second call: its windows' arrays at what its write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the core's own references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: what the program ends with. -/
abbrev W5 : Dev nD → Valuation τ sig (Elt F) := fun c => StableHlo.after hostOps2 (W4 m c)

/-! ## What the host stretches write and allocate -/

/-- No operation of the first stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The references the first stretch's operations write: each operation's one result. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- The references the second stretch's operations write. -/
abbrev hostOps1_W : List (Ref sig .tc) := [main_v2, main_cst, main_v3, main_v4, main_v5]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- The references the last stretch's operations write. -/
abbrev hostOps2_W : List (Ref sig .tc) := [main_v7, main_cst_0, main_v8, main_v9, main_v10, main_v11, main_cst_1, main_v12, main_cst_2, main_v13]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## The arguments end as launched

No host operation writes an argument and no call has one as a window's array, so the fold at an argument's buffer
walks back, boundary by boundary, to the launch memory. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- The prefetched tables' admissible contents: neither call has a table. -/
abbrev adm : (p : Fin 2) → (pcfgs (F := F) p).Adm := fun p => (cfgs p).toPCfg_adm
/-- Each call's proof data at the contents the call is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its dues,
    at nothing. -/
abbrev R (c : Dev nD) : sProp 𝕄 := iprop((∃ r, prngReg c r) ∗ ∃ W, owes (c : Thread nD τ) (0 : CellTallies nD τ sig Unit) W)
/-- A host stretch as a segment: from every unscoped buffer at the contents `W`, `R` riding along, to the same
    buffers at what the stretch's operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- The first call: entered from every unscoped buffer at `W1`, left at `W2`.  Its windows' arrays are split out of the
    unscoped buffers and put back at the exit contents; the generator register goes into the invariant before the first
    point and comes back out of the invariant after the last; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program is the run of its segments. -/
theorem main_run (c : Dev nD) : main (F := F) c = Pipeline.Seg.run (segs m) := (main_chain c).trans (by chain_rfl)

set_option backward.isDefEq.respectTransparency.types false in
/-- From any memory with zero counters, every weakly fair execution of the program on the cores terminates, and every
    final memory holds each unscoped buffer of each core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.Kernel.Frm

end
-- ==== Proof.KI.Shared0.lean ====
/-
  First pallas_call: what its three control cases share.

  The grid has 6 × 128 points; point t works on plane group t / 128 and pixel tile t % 128.  The body resets the
  accumulator at the first tile of a group (t % 128 = 0) and copies it to the output block at the last
  (t % 128 = 127); both conditions are decided over the grid in closed form.  The output window is idle except at
  the last tile, where it is written back.  The region's invariant holds the accumulator beside the second
  pallas_call's staging and accumulator buffers, which this region never touches.
-/
import proofs.«181613_j80625126080915_1_alg».proof.Proof.Gen.KernelIdeal.Launch
import proofs.«181613_j80625126080915_1_alg».proof.Proof.Gen.KernelIdeal.Skeleton
import proofs.«181613_j80625126080915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions, in closed form over the grid -/

/-- The reset condition: the pixel-tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 128 = 0 :=
  (by decide +kernel : ∀ t : Fin grid0.N, cond0_0 (grid0.coords t) ↔ t.val % 128 = 0)

/-- The write-out condition: the pixel-tile coordinate is the last, 127. -/
abbrev cond0_1 (i : grid0.Coords) : Prop := k0_cond2 i = 1#1
theorem hcond0_1 : ∀ t : Fin cfg0.N, cond0_1 (grid0.coords t) ↔ t.val % 128 = 127 :=
  (by decide +kernel : ∀ t : Fin grid0.N, cond0_1 (grid0.coords t) ↔ t.val % 128 = 127)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S8x256 .f32 := (Memref.whole cc0_stg1_0 : Memref sig .tc .vmem S8x256 .f32).view
abbrev ms0_0 (t : Fin cfg0.N) : Memref sig .tc .vmem S8x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S8x256 .f32 := Memref.whole cc0_scratch0
abbrev VS0_0 : View sig .tc .vmem S8x256 .f32 := scM0_0.view

/-- The scoped buffers of the other pallas_call, each whole at some contents: this region hands them through. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Frm

end
-- ==== Proof.KI.RunA0.lean ====
/-
  First pallas_call, first tile of a plane group (reset, no write-out): the body's run on whole memrefs.  The input
  tile is read, the output buffer is handed back untouched, and the accumulator — whatever it held — ends with the
  pieces the body stored: zeros everywhere, then the two half-rows of hits added to what the zeros read back.
-/
import proofs.«181613_j80625126080915_1_alg».proof.Proof.KI.Shared0

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator in this case, with the body's triple. -/
noncomputable def kernelRun0_A (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i)
    (x0 : Vec F S8x2048 .f32) :
    Σ' (L1 : List (View.Piece (Elt F) S8x256 .f32)), { LS0 : List (View.Piece (Elt F) S8x256 .f32) //
      ∀ (xi1 : Vec F S8x256 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frm

end
-- ==== Proof.KI.RunB0.lean ====
/-
  First pallas_call, a middle tile of a plane group (no reset, no write-out): the body's run on whole memrefs.  The
  accumulator holds what the tile before left; the body adds this tile's hits to each half and stores them back.
-/
import proofs.«181613_j80625126080915_1_alg».proof.Proof.KI.RunA0

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator in this case, with the body's triple. -/
noncomputable def kernelRun0_B (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i)
    (x0 : Vec F S8x2048 .f32) (xs0 : Vec F S8x256 .f32) :
    Σ' (L1 : List (View.Piece (Elt F) S8x256 .f32)), { LS0 : List (View.Piece (Elt F) S8x256 .f32) //
      ∀ (xi1 : Vec F S8x256 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frm

end
-- ==== Proof.KI.RunC0.lean ====
/-
  First pallas_call, last tile of a plane group (no reset, write-out): the body's run on whole memrefs.  The
  accumulator is updated as at a middle tile and then copied whole into the output block.
-/
import proofs.«181613_j80625126080915_1_alg».proof.Proof.KI.RunB0

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block and in the accumulator in this case, with the body's triple. -/
noncomputable def kernelRun0_C (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) :
    Σ' (L1 : List (View.Piece (Elt F) S8x256 .f32)), { LS0 : List (View.Piece (Elt F) S8x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Frm

end
-- ==== Proof.KI.Region0.lean ====
/-
  First pallas_call: what the accumulator and the output block hold after every grid point, the pipeline's proof
  data, and the body obligation.

  After point t the accumulator holds the case's stored pieces read back: at the first tile of a plane group the
  pieces over the zero fill, at every later tile the pieces over what the tile before left.  The output block is
  stored only at the last tile of a group, as a copy of the accumulator.  The region's invariant carries the
  accumulator at these contents from point to point (anything before the first point), beside the buffers the
  region hands through; the entry contents `V` of the core's buffers are a parameter.
-/
import proofs.«181613_j80625126080915_1_alg».proof.Proof.KI.RunC0

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First tile: nothing is stored into the output block (a placeholder nothing consults). -/
def out0_A_1 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i)
    (x0 : Vec F S8x2048 .f32) : Vec F S8x256 .f32 :=
  VO0_1.read (Elt F) (VO0_1.writes (Elt F) VO0_1.junk (kernelRun0_A c i arg2 harg2 arg3 harg3 arg4 harg4 hc0 hc1 x0).1)

/-- First tile: the accumulator's pieces cover it. -/
theorem scover0_A_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i)
    (x0 : Vec F S8x2048 .f32) (y : S8x256.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S8x128.size (by sl_kernel_rfl) y

/-- First tile: what the accumulator holds afterwards. -/
def sout0_A_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i)
    (x0 : Vec F S8x2048 .f32) : Vec F S8x256 .f32 :=
  VS0_0.read (Elt F) (VS0_0.writes (Elt F) VS0_0.junk (kernelRun0_A c i arg2 harg2 arg3 harg3 arg4 harg4 hc0 hc1 x0).2.1)

/-- Middle tile: nothing is stored into the output block. -/
def out0_B_1 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i)
    (x0 : Vec F S8x2048 .f32) (xs0 : Vec F S8x256 .f32) : Vec F S8x256 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i)
    (x0 : Vec F S8x2048 .f32) (xs0 : Vec F S8x256 .f32) (y : S8x256.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S8x128.size (by sl_kernel_rfl) y

/-- Middle tile: what the accumulator holds afterwards, over what it held before (`xs0`). -/
def sout0_B_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i)
    (x0 : Vec F S8x2048 .f32) (xs0 : Vec F S8x256 .f32) : Vec F S8x256 .f32 :=
  VS0_0.read (Elt F) (VS0_0.writes (Elt F) VS0_0.junk (kernelRun0_B c i arg2 harg2 arg3 harg3 arg4 harg4 hc0 hc1 x0 xs0).2.1)

/-- Last tile: the output block's one whole store covers it. -/
theorem cover0_C_1 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) (y : S8x256.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S8x256.size (by sl_kernel_rfl) y

/-- Last tile: what the output block holds afterwards. -/
def out0_C_1 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) : Vec F S8x256 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) (y : S8x256.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S8x128.size (by sl_kernel_rfl) y

/-- Last tile: what the accumulator holds afterwards. -/
def sout0_C_0 (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i)
    (x0 : Vec F S8x2048 .f32) (xs0 : Vec F S8x256 .f32) : Vec F S8x256 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- After the body at position `n`: (the output block, the accumulator).  The case the closed forms select at
    `n`, on the point's input tile, the accumulator read at what position `n - 1` left. -/
def outsAt0 (c : Dev nD) : (n : ℕ) → n < cfg0.N → Vec F S8x256 .f32 × Vec F S8x256 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 128 = 0 then
      if h1 : (n + 1) % 128 = 127 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 128 = 127 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- At a first tile. -/
theorem outsAt0_A (c : Dev nD) (t : Fin cfg0.N) (h0 : t.val % 128 = 0) (h1 : ¬t.val % 128 = 127) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- At a middle tile: over what the point before left. -/
theorem outsAt0_B (c : Dev nD) (t : Fin cfg0.N) (h0 : ¬t.val % 128 = 0) (h1 : ¬t.val % 128 = 127) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt0_C (c : Dev nD) (t : Fin cfg0.N) (h0 : ¬t.val % 128 = 0) (h1 : t.val % 128 = 127) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class invariant (the accumulator at anything); afterwards the
    accumulator at what the point before left, the handed-through buffers and the generator register at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The proof data on core `c`: the arrays as the region finds them; after the body at point `t` the input's buffer
    at its tile and the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the
    accumulator at what the point before left (at anything at the very first point) and takes it back at this
    point's contents; the handed-through buffers, the generator register and the core's dues pass unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 768 := lt_of_lt_of_eq t.isLt (show cfg0.N = 768 from N_0)
  by_cases h0 : t.val % 128 = 0
  · by_cases h1 : t.val % 128 = 127
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _)
            iexact Hrest
          iexact Hg
        isplitl [Ho]; · iexact Ho
        isplitl [H0]; · iexact H0
        iexists _; iexact H1
      · rw [PhiS0_castSucc V c t, PhiS0_pos V c _ _ hz]
        iintro ⟨⟨⟨HS0, Hrest⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _)
            iexact Hrest
          iexact Hg
        isplitl [Ho]; · iexact Ho
        isplitl [H0]; · iexact H0
        iexists _; iexact H1
  · by_cases h1 : t.val % 128 = 127
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _)
            iexact Hrest
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _)
            iexact Hrest
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 768 := N_0; omega)

end Cert.KernelIdeal.Frm

end
-- ==== Proof.KI.Shared1.lean ====
/-
  Second pallas_call: what its three control cases share.

  The grid has 6 × 128 points; point t works on plane group t / 128 and pixel tile t % 128.  The body resets the
  accumulator at the first tile of a group (t % 128 = 0) and copies it to the output block at the last
  (t % 128 = 127); both conditions are decided over the grid in closed form.  The output window is idle except at
  the last tile, where it is written back.  The region's invariant holds the accumulator beside the first
  pallas_call's staging and accumulator buffers, which this region never touches.
-/
import proofs.«181613_j80625126080915_1_alg».proof.Proof.Gen.KernelIdeal.Launch
import proofs.«181613_j80625126080915_1_alg».proof.Proof.Gen.KernelIdeal.Skeleton
import proofs.«181613_j80625126080915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions, in closed form over the grid -/

/-- The reset condition: the pixel-tile coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 128 = 0 :=
  (by decide +kernel : ∀ t : Fin grid1.N, cond1_0 (grid1.coords t) ↔ t.val % 128 = 0)

/-- The write-out condition: the pixel-tile coordinate is the last, 127. -/
abbrev cond1_1 (i : grid1.Coords) : Prop := k1_cond2 i = 1#1
theorem hcond1_1 : ∀ t : Fin cfg1.N, cond1_1 (grid1.coords t) ↔ t.val % 128 = 127 :=
  (by decide +kernel : ∀ t : Fin grid1.N, cond1_1 (grid1.coords t) ↔ t.val % 128 = 127)

/-! ## Where the windows are idle -/

theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel

/-! ## The memrefs the body is called with -/

/-- One staging buffer of the output window, through which its contents are stated. -/
abbrev VO1_1 : View sig .tc .vmem S8x256 .f32 := (Memref.whole cc1_stg1_0 : Memref sig .tc .vmem S8x256 .f32).view
abbrev ms1_0 (t : Fin cfg1.N) : Memref sig .tc .vmem S8x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256 .f32 := win1_1.stage (cfg1.slots t 1)
abbrev hs1_1 (t : Fin cfg1.N) : (ms1_1 t).IsWhole := hstage1_1 ((cfg1.slots t 1).cast nbuf1_1)
/-- The accumulator: a whole scoped buffer of the kernel's own. -/
abbrev scM1_0 : Memref sig .tc .vmem S8x256 .f32 := Memref.whole cc1_scratch0
abbrev VS1_0 : View sig .tc .vmem S8x256 .f32 := scM1_0.view

/-- The scoped buffers of the other pallas_call, each whole at some contents: this region hands them through. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The class invariant with the accumulator as a memref owned at some contents: the same separating conjunction,
    the accumulator (listed last among the core's scoped buffers) brought to the front. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA rest1; rw [scopedRest1_eq]; simp only [scM1_0, owns_whole]
  refine Entails.antisymm ?_ ?_
  · show (_ : sProp 𝕄) ⊢ _
    iintro ⟨⟨H1, H2, H3, H4, H5, H6⟩, Hg⟩
    isplitl [H1 H2 H3 H4 H5 H6]
    · isplitl [H6]; · iexact H6
      isplitl [H1]; · iexact H1
      isplitl [H2]; · iexact H2
      isplitl [H3]; · iexact H3
      isplitl [H4]; · iexact H4
      iexact H5
    iexact Hg
  · show (_ : sProp 𝕄) ⊢ _
    iintro ⟨⟨H6, H1, H2, H3, H4, H5⟩, Hg⟩
    isplitl [H1 H2 H3 H4 H5 H6]
    · isplitl [H1]; · iexact H1
      isplitl [H2]; · iexact H2
      isplitl [H3]; · iexact H3
      isplitl [H4]; · iexact H4
      isplitl [H5]; · iexact H5
      iexact H6
    iexact Hg

end Cert.KernelIdeal.Frm

end
-- ==== Proof.KI.RunA1.lean ====
/-
  Second pallas_call, first tile of a plane group (reset, no write-out): the body's run on whole memrefs.  The input
  tile is read, the output buffer is handed back untouched, and the accumulator — whatever it held — ends with the
  pieces the body stored: zeros everywhere, then the two half-rows of hits added to what the zeros read back.
-/
import proofs.«181613_j80625126080915_1_alg».proof.Proof.KI.Shared1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator in this case, with the body's triple. -/
noncomputable def kernelRun1_A (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i)
    (x0 : Vec F S8x2048 .f32) :
    Σ' (L1 : List (View.Piece (Elt F) S8x256 .f32)), { LS0 : List (View.Piece (Elt F) S8x256 .f32) //
      ∀ (xi1 : Vec F S8x256 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__hist_kernel i arg2 harg2 arg3 harg3 arg4 harg4) K } := by
  refine ⟨[], ?_, fun xi1 E K => ?run⟩
  case run =>
    simp only [cc1__hist_kernel_eq_skeleton]; unfold cc1__hist_kernel_skel
    simp only [k1_part1_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frm

end
-- ==== Proof.KI.RunB1.lean ====
/-
  Second pallas_call, a middle tile of a plane group (no reset, no write-out): the body's run on whole memrefs.  The
  accumulator holds what the tile before left; the body adds this tile's hits to each half and stores them back.
-/
import proofs.«181613_j80625126080915_1_alg».proof.Proof.KI.RunA1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator in this case, with the body's triple. -/
noncomputable def kernelRun1_B (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i)
    (x0 : Vec F S8x2048 .f32) (xs0 : Vec F S8x256 .f32) :
    Σ' (L1 : List (View.Piece (Elt F) S8x256 .f32)), { LS0 : List (View.Piece (Elt F) S8x256 .f32) //
      ∀ (xi1 : Vec F S8x256 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__hist_kernel i arg2 harg2 arg3 harg3 arg4 harg4) K } := by
  refine ⟨[], ?_, fun xi1 E K => ?run⟩
  case run =>
    simp only [cc1__hist_kernel_eq_skeleton]; unfold cc1__hist_kernel_skel
    simp only [k1_part1_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frm

end
-- ==== Proof.KI.RunC1.lean ====
/-
  Second pallas_call, last tile of a plane group (no reset, write-out): the body's run on whole memrefs.  The
  accumulator is updated as at a middle tile and then copied whole into the output block.
-/
import proofs.«181613_j80625126080915_1_alg».proof.Proof.KI.RunB1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block and in the accumulator in this case, with the body's triple. -/
noncomputable def kernelRun1_C (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) :
    Σ' (L1 : List (View.Piece (Elt F) S8x256 .f32)), { LS0 : List (View.Piece (Elt F) S8x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__hist_kernel i arg2 harg2 arg3 harg3 arg4 harg4) K } := by
  refine ⟨?_, ?_, fun E K => ?run⟩
  case run =>
    simp only [cc1__hist_kernel_eq_skeleton]; unfold cc1__hist_kernel_skel
    simp only [k1_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Frm

end
-- ==== Proof.KI.Region1.lean ====
/-
  Second pallas_call: what the accumulator and the output block hold after every grid point, the pipeline's proof
  data, and the body obligation.

  After point t the accumulator holds the case's stored pieces read back: at the first tile of a plane group the
  pieces over the zero fill, at every later tile the pieces over what the tile before left.  The output block is
  stored only at the last tile of a group, as a copy of the accumulator.  The region's invariant carries the
  accumulator at these contents from point to point (anything before the first point), beside the buffers the
  region hands through; the entry contents `V` of the core's buffers are a parameter.
-/
import proofs.«181613_j80625126080915_1_alg».proof.Proof.KI.RunC1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First tile: nothing is stored into the output block (a placeholder nothing consults). -/
def out1_A_1 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i)
    (x0 : Vec F S8x2048 .f32) : Vec F S8x256 .f32 :=
  VO1_1.read (Elt F) (VO1_1.writes (Elt F) VO1_1.junk (kernelRun1_A c i arg2 harg2 arg3 harg3 arg4 harg4 hc0 hc1 x0).1)

/-- First tile: the accumulator's pieces cover it. -/
theorem scover1_A_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i)
    (x0 : Vec F S8x2048 .f32) (y : S8x256.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S8x128.size (by sl_kernel_rfl) y

/-- First tile: what the accumulator holds afterwards. -/
def sout1_A_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i)
    (x0 : Vec F S8x2048 .f32) : Vec F S8x256 .f32 :=
  VS1_0.read (Elt F) (VS1_0.writes (Elt F) VS1_0.junk (kernelRun1_A c i arg2 harg2 arg3 harg3 arg4 harg4 hc0 hc1 x0).2.1)

/-- Middle tile: nothing is stored into the output block. -/
def out1_B_1 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i)
    (x0 : Vec F S8x2048 .f32) (xs0 : Vec F S8x256 .f32) : Vec F S8x256 .f32 :=
  VO1_1.read (Elt F) (VO1_1.writes (Elt F) VO1_1.junk (kernelRun1_B c i arg2 harg2 arg3 harg3 arg4 harg4 hc0 hc1 x0 xs0).1)

theorem scover1_B_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i)
    (x0 : Vec F S8x2048 .f32) (xs0 : Vec F S8x256 .f32) (y : S8x256.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S8x128.size (by sl_kernel_rfl) y

/-- Middle tile: what the accumulator holds afterwards, over what it held before (`xs0`). -/
def sout1_B_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i)
    (x0 : Vec F S8x2048 .f32) (xs0 : Vec F S8x256 .f32) : Vec F S8x256 .f32 :=
  VS1_0.read (Elt F) (VS1_0.writes (Elt F) VS1_0.junk (kernelRun1_B c i arg2 harg2 arg3 harg3 arg4 harg4 hc0 hc1 x0 xs0).2.1)

/-- Last tile: the output block's one whole store covers it. -/
theorem cover1_C_1 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) (y : S8x256.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S8x256.size (by sl_kernel_rfl) y

/-- Last tile: what the output block holds afterwards. -/
def out1_C_1 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) : Vec F S8x256 .f32 :=
  VO1_1.read (Elt F) (VO1_1.writes (Elt F) VO1_1.junk (kernelRun1_C c i arg2 harg2 arg3 harg3 arg4 harg4 hc0 hc1 x0 xs0).1)

theorem scover1_C_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) (y : S8x256.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S8x128.size (by sl_kernel_rfl) y

/-- Last tile: what the accumulator holds afterwards. -/
def sout1_C_0 (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i)
    (x0 : Vec F S8x2048 .f32) (xs0 : Vec F S8x256 .f32) : Vec F S8x256 .f32 :=
  VS1_0.read (Elt F) (VS1_0.writes (Elt F) VS1_0.junk (kernelRun1_C c i arg2 harg2 arg3 harg3 arg4 harg4 hc0 hc1 x0 xs0).2.1)

/-! ## What the output block and the accumulator hold after each point -/

/-- After the body at position `n`: (the output block, the accumulator).  The case the closed forms select at
    `n`, on the point's input tile, the accumulator read at what position `n - 1` left. -/
def outsAt1 (c : Dev nD) : (n : ℕ) → n < cfg1.N → Vec F S8x256 .f32 × Vec F S8x256 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 128 = 0 then
      if h1 : (n + 1) % 128 = 127 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 128 = 127 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

/-- At a first tile. -/
theorem outsAt1_A (c : Dev nD) (t : Fin cfg1.N) (h0 : t.val % 128 = 0) (h1 : ¬t.val % 128 = 127) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

/-- At a middle tile: over what the point before left. -/
theorem outsAt1_B (c : Dev nD) (t : Fin cfg1.N) (h0 : ¬t.val % 128 = 0) (h1 : ¬t.val % 128 = 127) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt1_C (c : Dev nD) (t : Fin cfg1.N) (h0 : ¬t.val % 128 = 0) (h1 : t.val % 128 = 127) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class invariant (the accumulator at anything); afterwards the
    accumulator at what the point before left, the handed-through buffers and the generator register at anything. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The pipeline's proof data -/

/-- The proof data on core `c`: the arrays as the region finds them; after the body at point `t` the input's buffer
    at its tile and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the closed forms say which case the point is in; the invariant hands the body the
    accumulator at what the point before left (at anything at the very first point) and takes it back at this
    point's contents; the handed-through buffers, the generator register and the core's dues pass unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 768 := lt_of_lt_of_eq t.isLt (show cfg1.N = 768 from N_1)
  by_cases h0 : t.val % 128 = 0
  · by_cases h1 : t.val % 128 = 127
    · exfalso; omega
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _)
            iexact Hrest
          iexact Hg
        isplitl [Ho]; · iexact Ho
        isplitl [H0]; · iexact H0
        iexists _; iexact H1
      · rw [PhiS1_castSucc V c t, PhiS1_pos V c _ _ hz]
        iintro ⟨⟨⟨HS0, Hrest⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _)
            iexact Hrest
          iexact Hg
        isplitl [Ho]; · iexact Ho
        isplitl [H0]; · iexact H0
        iexists _; iexact H1
  · by_cases h1 : t.val % 128 = 127
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [outsAt1_C V c t h0 h1]
      unfold out1_C_1 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _)
            iexact Hrest
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _)
            iexact Hrest
          iexact Hg
        isplitl [Ho]; · iexact Ho
        isplitl [H0]; · iexact H0
        iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 768 := N_1; omega)

end Cert.KernelIdeal.Frm

end
-- ==== Proof.KI.Run.lean ====
/-
  The run of the whole program: a stretch of host operations, the first pallas_call, a second stretch, the second
  pallas_call, a last stretch — five segments, each entered from what the one before it left.

  Between two segments a core holds every one of its unscoped buffers whole, at contents that are a fold through the
  program from the launch memory: a host stretch rewrites the buffers its operations write and keeps the rest; a
  pallas_call leaves its windows' arrays at what its write-backs make of them and keeps every other buffer.  Beside the
  buffers ride the core's generator register, at some state, and its dues, at nothing.  The run ends with every unscoped
  buffer at the last contents of the fold; neither argument array is written by any host operation or is a window's
  array of either call, so the fold at an argument walks back to the launch memory.
-/
import proofs.«181613_j80625126080915_1_alg».proof.Proof.KI.Region0
import proofs.«181613_j80625126080915_1_alg».proof.Proof.KI.Region1
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments -/

/-- Core `c`'s buffers at launch. -/
abbrev W0 : Dev nD → Valuation τ sig (Elt F) := fun c b => m ((c : Dev nD), b)
/-- After the first host stretch: what the first call is entered from. -/
abbrev W1 : Dev nD → Valuation τ sig (Elt F) := fun c => StableHlo.after hostOps0 (W0 m c)
/-- The same, read at the core's own references (the entry contents the first call's proof data take). -/
abbrev V1 : (c : Dev nD) → (b : Ref sig .tc) → Buf (Elt F) ((c : Thread nD τ).loc b) := fun c b => W1 m c b
/-- After the first call: its windows' arrays at what the write-backs of all its points leave (an input's array as
    entered), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m c b
/-- At the first call's exit each of its arrays holds what the call leaves, and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: what the second call is entered from. -/
abbrev W3 : Dev nD → Valuation τ sig (Elt F) := fun c => StableHlo.after hostOps1 (W2 m c)
/-- The same, read at the core's own references (the entry contents the second call's proof data take). -/
abbrev V3 : (c : Dev nD) → (b : Ref sig .tc) → Buf (Elt F) ((c : Thread nD τ).loc b) := fun c b => W3 m c b
/-- After the second call: its windows' arrays at what its write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the core's own references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: what the program ends with. -/
abbrev W5 : Dev nD → Valuation τ sig (Elt F) := fun c => StableHlo.after hostOps2 (W4 m c)

/-! ## What the host stretches write and allocate -/

/-- No operation of the first stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The references the first stretch's operations write: each operation's one result. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- The references the second stretch's operations write. -/
abbrev hostOps1_W : List (Ref sig .tc) := [main_v2, main_cst, main_v3, main_v4, main_v5]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- The references the last stretch's operations write. -/
abbrev hostOps2_W : List (Ref sig .tc) := [main_v7, main_cst_0, main_v8, main_v9, main_v10, main_v11, main_cst_1, main_v12, main_cst_2, main_v13]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## The arguments end as launched

No host operation writes an argument and no call has one as a window's array, so the fold at an argument's buffer
walks back, boundary by boundary, to the launch memory. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- The prefetched tables' admissible contents: neither call has a table. -/
abbrev adm : (p : Fin 2) → (pcfgs (F := F) p).Adm := fun p => (cfgs p).toPCfg_adm
/-- Each call's proof data at the contents the call is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its dues,
    at nothing. -/
abbrev R (c : Dev nD) : sProp 𝕄 := iprop((∃ r, prngReg c r) ∗ ∃ W, owes (c : Thread nD τ) (0 : CellTallies nD τ sig Unit) W)
/-- A host stretch as a segment: from every unscoped buffer at the contents `W`, `R` riding along, to the same
    buffers at what the stretch's operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- The first call: entered from every unscoped buffer at `W1`, left at `W2`.  Its windows' arrays are split out of the
    unscoped buffers and put back at the exit contents; the generator register goes into the invariant before the first
    point and comes back out of the invariant after the last; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program is the run of its segments. -/
theorem main_run (c : Dev nD) : main (F := F) c = Pipeline.Seg.run (segs m) := (main_chain c).trans (by chain_rfl)

set_option backward.isDefEq.respectTransparency.types false in
/-- From any memory with zero counters, every weakly fair execution of the program on the cores terminates, and every
    final memory holds each unscoped buffer of each core at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.KernelIdeal.Frm

end
-- ==== Proof.Spec.lean ====
/-
  The histogram both programs compute, stated once over the extended reals.

  A pixel value `x` falls in the bin `bin x`: the value scaled by 255, clamped to [0, 255] and truncated toward
  zero, as a 32-bit word.  `hist X` counts, for each of the 48 image planes (rows of `X`) and each of the 256 bins,
  the pixels of the plane that fall in the bin — a sum of ones over the plane's 262144 pixels.
-/
import Idealize.ShloMosaic.PureOps.Ideal
import Idealize.ShloMosaic.Lib.ValueIdx

noncomputable section

namespace Cert.Spec

open Idealize.ShloMosaic Idealize.ShloMosaic.ValueIdx

/-- The 48 image planes, flattened: one row of 262144 pixels per plane. -/
abbrev SX : Shape := ⟨2, ![48, 262144]⟩
/-- One histogram of 256 bins per plane. -/
abbrev SH : Shape := ⟨2, ![48, 256]⟩

/-- The bin a pixel value falls in: scaled by 255, clamped to [0, 255], truncated toward zero. -/
def bin (x : EReal) : BitVec 32 :=
  Ideal.fptosi 32 (min (((255 : ℝ)) : EReal) (max (((0 : ℝ)) : EReal) (x * ((255 : ℝ) : EReal))))

/-- One if the pixel value `x` falls in bin number `k`, zero otherwise. -/
def hit (x : EReal) (k : ℕ) : EReal := if bin x = BitVec.ofNat 32 k then 1 else 0

/-- The number of pixels of plane `r` among the first `n` that fall in bin `k`. -/
def countUpTo (X : FVec Ideal SX .f32) (r : Fin 48) (k : ℕ) (n : ℕ) : EReal :=
  ∑ p ∈ Finset.univ.filter (fun p : Fin 262144 => p.val < n), hit (X (ix2 r p)) k

/-- The histogram: entry (r, k) counts the pixels of plane `r` in bin `k`. -/
def hist (X : FVec Ideal SX .f32) : FVec Ideal SH .f32 :=
  fun j => ∑ p : Fin 262144, hit (X (ix2 (j 0) p)) (j 1).val

/-- The histograms as the loss reads them: one per (batch, channel), each entry divided by the plane's 262144 pixels. -/
abbrev S3 : Shape := ⟨3, ![16, 3, 256]⟩
abbrev S0 : Shape := ⟨0, ![]⟩

/-- A histogram normalised: reshaped to (16, 3, 256) and every count divided by the number of pixels of a plane. -/
def normHist (h : FVec Ideal SH .f32) : FVec Ideal S3 .f32 :=
  Host.divf (shapeCast S3 h (by decide))
    (broadcastInDim S3 ![] (by decide) (constant (F := Ideal) S0 .f32 0x48800000#32))

/-- The loss of two histograms: the mean, over the 12288 entries, of the absolute difference of the normalised
    histograms (the sum of the absolute differences from zero, divided by 12288). -/
def lossOf (h0 h1 : FVec Ideal SH .f32) : FVec Ideal S0 .f32 :=
  Host.divf
    (Host.reduceAdd (axes := [0, 1, 2]) (Host.absf (subf (normHist h0) (normHist h1)))
      (constant (F := Ideal) S0 .f32 0x00000000#32) (by decide) (by decide))
    (constant (F := Ideal) S0 .f32 0x46400000#32)

end Cert.Spec

end
-- ==== Proof.SpecLaws.lean ====
/-
  Facts about the histogram of Spec.lean: the two float patterns the programs spell, the range of a bin, the
  histogram as a count over all pixels at their flat positions, and the count built up tile by tile.
-/
import proofs.«181613_j80625126080915_1_alg».proof.Proof.Spec

noncomputable section

namespace Cert.Spec

open Idealize.ShloMosaic Idealize.ShloMosaic.ValueIdx

/-- The pattern of 255.0 denotes the real 255. -/
theorem ofBits_255 : Ideal.ofBits .f32 0x437F0000#32 = ((255 : ℝ) : EReal) := by
  simp [Ideal.ofBits, Ideal.ieee, -EReal.coe_mul]; norm_num

/-- The pattern of +0.0 denotes the real 0. -/
theorem ofBits_zero : Ideal.ofBits .f32 0x00000000#32 = ((0 : ℝ) : EReal) := by
  simp [Ideal.ofBits, Ideal.ieee]

/-- Clamping any extended real to [0, 255] gives a real number in that interval: the infinities go to the ends. -/
theorem clamp_real (y : EReal) :
    ∃ r : ℝ, 0 ≤ r ∧ r ≤ 255 ∧ min (((255 : ℝ)) : EReal) (max (((0 : ℝ)) : EReal) y) = (r : EReal) := by
  induction y using EReal.rec with
  | bot => exact ⟨0, le_refl _, by norm_num, by simp⟩
  | top => exact ⟨255, by norm_num, le_refl _, by simp⟩
  | coe a =>
    refine ⟨min 255 (max 0 a), le_min (by norm_num) (le_max_left _ _), min_le_left _ _, ?_⟩
    rw [EReal.coe_strictMono.monotone.map_min, EReal.coe_strictMono.monotone.map_max]

/-- A bin is the word of a natural number below 256: the floor of a real in [0, 255]. -/
theorem bin_eq_ofNat (x : EReal) : ∃ n : ℕ, n < 256 ∧ bin x = BitVec.ofNat 32 n := by
  obtain ⟨r, h0, h1, hr⟩ := clamp_real (x * ((255 : ℝ) : EReal))
  have hfl0 : 0 ≤ ⌊r⌋ := Int.floor_nonneg.mpr h0
  have hfl1 : ⌊r⌋ ≤ 255 := by
    have h : ⌊r⌋ ≤ ⌊(255 : ℝ)⌋ := Int.floor_le_floor h1
    have e : ⌊(255 : ℝ)⌋ = 255 := by
      have := Int.floor_natCast (R := ℝ) 255
      simpa using this
    omega
  refine ⟨⌊r⌋.toNat, by omega, ?_⟩
  unfold bin
  rw [hr, Ideal.fptosi, Ideal.toIntClamped_coe, if_pos h0]
  have e : max (-((2 ^ (32 - 1) : ℕ) : ℤ)) (min (((2 ^ (32 - 1) : ℕ) : ℤ) - 1) ⌊r⌋) = ((⌊r⌋.toNat : ℕ) : ℤ) := by
    rw [Int.toNat_of_nonneg hfl0]
    have e1 : ((2 ^ (32 - 1) : ℕ) : ℤ) = 2147483648 := by norm_num
    rw [e1]
    omega
  rw [e]
  exact BitVec.ofInt_natCast _ _

/-- Every bin is one of 0, …, 255. -/
theorem bin_toNat_lt (x : EReal) : (bin x).toNat < 256 := by
  obtain ⟨n, hn, h⟩ := bin_eq_ofNat x
  rw [h, BitVec.toNat_ofNat]
  omega

/-- A bin read as a signed word is that same natural number. -/
theorem bin_toInt (x : EReal) : (bin x).toInt = ((bin x).toNat : ℤ) := by
  have h := bin_toNat_lt x
  rw [BitVec.toInt_eq_toNat_cond, if_pos (by omega)]

/-- Falling in bin number `k` (below 256) is having `k` as the bin's value. -/
theorem bin_eq_iff (x : EReal) (k : ℕ) (hk : k < 256) : bin x = BitVec.ofNat 32 k ↔ (bin x).toNat = k := by
  constructor
  · intro h
    rw [h, BitVec.toNat_ofNat]
    omega
  · intro h
    apply BitVec.eq_of_toNat_eq
    rw [BitVec.toNat_ofNat, h]
    omega

/-- A flat pixel position `n = q · 262144 + p` has plane `q` and in-plane position `p`. -/
theorem flat_split (n : Fin 12582912) (q : Fin 48) (p : Fin 262144) (h : n.val = q.val * 262144 + p.val)
    (h1 : n.val / 262144 < 48) (h2 : n.val % 262144 < 262144) :
    (⟨n.val / 262144, h1⟩ : Fin 48) = q ∧ (⟨n.val % 262144, h2⟩ : Fin 262144) = p := by
  refine ⟨Fin.ext ?_, Fin.ext ?_⟩
  · show n.val / 262144 = q.val
    omega
  · show n.val % 262144 = p.val
    omega

/-- The pixel at flat position `n = q · 262144 + p` lands on `r · 256 + k` exactly when `q = r` and its bin is
    `k`: both the bin and `k` are below 256, so the two sides are the same number written in base 256. -/
theorem flat_pred_iff (X : FVec Ideal SX .f32) (r : Fin 48) (k : Fin 256) (n : Fin 12582912) (q : Fin 48)
    (p : Fin 262144) (h : n.val = q.val * 262144 + p.val)
    (h1 : n.val / 262144 < 48) (h2 : n.val % 262144 < 262144) :
    ((bin (X (ix2 (⟨n.val / 262144, h1⟩ : Fin 48) (⟨n.val % 262144, h2⟩ : Fin 262144)))).toNat
        + 256 * (n.val / 262144) = r.val * 256 + k.val)
      ↔ (q = r ∧ (bin (X (ix2 q p))).toNat = k.val) := by
  obtain ⟨e1, e2⟩ := flat_split n q p h h1 h2
  rw [e1, e2]
  have hb := bin_toNat_lt (X (ix2 q p))
  have hd : n.val / 262144 = q.val := by omega
  rw [hd]
  constructor
  · intro e
    exact ⟨Fin.ext (by omega), by omega⟩
  · rintro ⟨rfl, e⟩
    omega

/-- The histogram entry (r, k) as a count over ALL 48·262144 pixels in flat order: pixel `n` belongs to plane
    `n / 262144` and lands on the flat position `bin + 256 · plane`; it lands on `r · 256 + k` exactly when it is a
    pixel of plane `r` that falls in bin `k`, because every bin is below 256. -/
theorem hist_eq_flatCount (X : FVec Ideal SX .f32) (r : Fin 48) (k : Fin 256) :
    hist X (ix2 r k) = ∑ n ∈ Finset.univ.filter (fun n : Fin 12582912 =>
        (bin (X (ix2 (⟨n.val / 262144, by omega⟩ : Fin 48) (⟨n.val % 262144, Nat.mod_lt _ (by norm_num)⟩ : Fin 262144)))).toNat
          + 256 * (n.val / 262144) = r.val * 256 + k.val), (1 : EReal) := by
  have hL : hist X (ix2 r k)
      = ∑ p ∈ Finset.univ.filter (fun p : Fin 262144 => (bin (X (ix2 r p))).toNat = k.val), (1 : EReal) := by
    rw [Finset.sum_filter]
    show ∑ p : Fin 262144, hit (X (ix2 r p)) k.val = _
    refine Finset.sum_congr rfl (fun p _ => ?_)
    unfold hit
    simp only [bin_eq_iff _ _ k.isLt]
  rw [hL]
  refine Finset.sum_bij (fun p _ => (⟨r.val * 262144 + p.val, by omega⟩ : Fin 12582912)) ?_ ?_ ?_ ?_
  · intro p hp
    rw [Finset.mem_filter] at hp ⊢
    exact ⟨Finset.mem_univ _, (flat_pred_iff X r k _ r p rfl _ _).mpr ⟨rfl, hp.2⟩⟩
  · intro p1 _ p2 _ h
    have h' : r.val * 262144 + p1.val = r.val * 262144 + p2.val := congrArg Fin.val h
    exact Fin.ext (by omega)
  · intro n hn
    rw [Finset.mem_filter] at hn
    have hlt := n.isLt
    have h1 : n.val / 262144 < 48 := by omega
    have h2 : n.val % 262144 < 262144 := Nat.mod_lt _ (by norm_num)
    have hnq : n.val = (⟨n.val / 262144, h1⟩ : Fin 48).val * 262144 + (⟨n.val % 262144, h2⟩ : Fin 262144).val := by
      show n.val = n.val / 262144 * 262144 + n.val % 262144
      omega
    obtain ⟨hqr, hb⟩ := (flat_pred_iff X r k n _ _ hnq h1 h2).mp hn.2
    refine ⟨⟨n.val % 262144, h2⟩, ?_, ?_⟩
    · rw [Finset.mem_filter]
      refine ⟨Finset.mem_univ _, ?_⟩
      rw [← hqr]
      exact hb
    · apply Fin.ext
      show r.val * 262144 + n.val % 262144 = n.val
      have : n.val / 262144 = r.val := congrArg Fin.val hqr
      omega
  · intro p _
    rfl

/-- Before any pixel nothing is counted. -/
theorem countUpTo_zero (X : FVec Ideal SX .f32) (r : Fin 48) (k : ℕ) : countUpTo X r k 0 = 0 := by
  simp [countUpTo]

/-- One more tile of 2048 pixels adds that tile's hits. -/
theorem countUpTo_tile (X : FVec Ideal SX .f32) (r : Fin 48) (k : ℕ) (T : ℕ) (hT : 2048 * (T + 1) ≤ 262144) :
    countUpTo X r k (2048 * (T + 1))
      = countUpTo X r k (2048 * T) + ∑ p : Fin 2048, hit (X (ix2 r (⟨2048 * T + p.val, by omega⟩ : Fin 262144))) k := by
  unfold countUpTo
  have hsplit : ∀ f : Fin 262144 → EReal,
      ∑ p ∈ Finset.univ.filter (fun p : Fin 262144 => p.val < 2048 * (T + 1)), f p
        = ∑ p ∈ Finset.univ.filter (fun p : Fin 262144 => p.val < 2048 * T), f p
          + ∑ p ∈ Finset.univ.filter (fun p : Fin 262144 => 2048 * T ≤ p.val ∧ p.val < 2048 * (T + 1)), f p := by
    intro f
    rw [← Finset.sum_union]
    · refine Finset.sum_congr ?_ (fun _ _ => rfl)
      ext p
      simp only [Finset.mem_filter, Finset.mem_univ, true_and, Finset.mem_union]
      omega
    · rw [Finset.disjoint_filter]
      intro p _ h1 h2
      omega
  have hre : ∑ p ∈ Finset.univ.filter (fun p : Fin 262144 => 2048 * T ≤ p.val ∧ p.val < 2048 * (T + 1)),
        hit (X (ix2 r p)) k
      = ∑ q : Fin 2048, hit (X (ix2 r (⟨2048 * T + q.val, by omega⟩ : Fin 262144))) k := by
    symm
    refine Finset.sum_bij (fun q _ => (⟨2048 * T + q.val, by omega⟩ : Fin 262144)) ?_ ?_ ?_ ?_
    · intro q _
      rw [Finset.mem_filter]
      refine ⟨Finset.mem_univ _, ?_⟩
      show 2048 * T ≤ 2048 * T + q.val ∧ 2048 * T + q.val < 2048 * (T + 1)
      omega
    · intro q1 _ q2 _ h
      have h' : 2048 * T + q1.val = 2048 * T + q2.val := congrArg Fin.val h
      exact Fin.ext (by omega)
    · intro p hp
      rw [Finset.mem_filter] at hp
      refine ⟨⟨p.val - 2048 * T, by omega⟩, Finset.mem_univ _, ?_⟩
      apply Fin.ext
      show 2048 * T + (p.val - 2048 * T) = p.val
      omega
    · intro q _
      rfl
  rw [hsplit, hre]

/-- All 128 tiles counted is the histogram entry. -/
theorem countUpTo_full (X : FVec Ideal SX .f32) (r : Fin 48) (k : Fin 256) :
    countUpTo X r k.val 262144 = hist X (ix2 r k) := by
  unfold countUpTo
  rw [Finset.filter_true_of_mem (fun p _ => p.isLt)]
  rfl

end Cert.Spec

end
-- ==== Proof.PayIdeal.lean ====
/-
  The kernel body's arithmetic at the extended reals, index by index.

  At a grid point the body holds a tile `x` of 8 planes × 2048 pixels.  Its two stored values add, to what the
  accumulator held, the number of the tile's pixels of plane `r` that fall in bin `b` (the low 128 bins) and in bin
  `b + 128` (the high 128 bins): the one-hot comparison of each pixel's bin against the bin numbers, converted to
  0.0 / 1.0 and summed over the pixel axis.  The reset value is zero everywhere.
-/
import proofs.«181613_j80625126080915_1_alg».proof.Proof.Gen.KernelIdeal.Skeleton
import proofs.«181613_j80625126080915_1_alg».proof.Proof.SpecLaws
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.PayIdeal

open Cert.KernelIdeal Cert.KernelIdeal.Gen Cert.Spec
open Idealize.ShloMosaic Idealize.ShloMosaic.TcCoe Idealize.ShloMosaic.ValueIdx

/-! ## First pallas_call (payloads `k0_pay·`) -/

/-- The reset value is zero at every entry. -/
theorem pay2_apply (r : Fin 8) (b : Fin 256) : k0_pay2 (F := Ideal) (ix2 r b) = 0 := by
  unfold k0_pay2
  refine (congrFun (shapeCast_self _ _) (ix2 r b)).trans ?_
  show Ideal.ofBits .f32 0x00000000#32 = 0
  rw [Cert.Spec.ofBits_zero]
  exact EReal.coe_zero

/-- The bin word of pixel (r, p), at the entry (r, p, 0) of the tile's bins: the position (r, p, 0) of an
    8 × 2048 × 1 array is the position (r, p) of the 8 × 2048 one, and there the value is the pixel scaled by 255,
    clamped to [0, 255] and truncated. -/
theorem pay3_apply (x : Vec Ideal S8x2048 .f32) (r : Fin 8) (p : Fin 2048) (z : Fin 1) :
    k0_pay3 (F := Ideal) x (ix3 r p z) = bin (x (ix2 r p)) := by
  unfold k0_pay3
  refine (shapeCast_apply _ _ (ix3 r p z) (ix2 r p) ?_).trans ?_
  · rw [Shape.rowMajor_val_two, Shape.rowMajor_val_three]
    have hz : z.val < 1 := z.isLt
    show r.val * 2048 + p.val = (r.val * 2048 + p.val) * 1 + z.val
    omega
  · show Ideal.fptosi 32 (min (Ideal.ofBits .f32 0x437F0000#32) (max (Ideal.ofBits .f32 0x00000000#32)
        (shapeCast S8x2048 x shapeCasts_S8x2048_S8x2048 (ix2 r p) * Ideal.ofBits .f32 0x437F0000#32))) = _
    rw [shapeCast_self, Cert.Spec.ofBits_255, Cert.Spec.ofBits_zero]
    rfl

/-- A one-bit comparison for equality, widened to 32 bits and read as a number, is the indicator of the equality. -/
private theorem onehot_eq (w u : BitVec 32) :
    ((((IntOp.cmpi .eq w u).setWidth 32).toInt : ℝ) : EReal) = if w = u then 1 else 0 := by
  by_cases h : w = u
  · rw [if_pos h, StableHlo.Predicate.cmpi_eq_iff.mpr h]
    norm_num
  · rw [if_neg h]
    have h0 : IntOp.cmpi .eq w u = 0#1 := eq_zero_of_ne_one (fun h1 => h (StableHlo.Predicate.cmpi_eq_iff.mp h1))
    rw [h0]
    norm_num

/-- The index summed over for the entry (r, b), at pixel p, is (r, p, b). -/
private theorem lift_eq (r : Fin 8) (b : Fin 128) (p : Fin 2048) :
    reduces_S8x2048x128_S8x128.lift (ix2 r b) p = ix3 r p b := by
  funext c
  apply Fin.ext
  match c with
  | ⟨0, _⟩ => rfl
  | ⟨1, _⟩ => rfl
  | ⟨2, _⟩ => rfl

/-- One term of the sum over pixels: pixel (r, p)'s bin compared with the bin number b + off (the lane number b
    shifted by the half's offset), as 1 or 0. -/
private theorem term_apply (x : Vec Ideal S8x2048 .f32) (off : BitVec 32) (r : Fin 8) (p : Fin 2048) (b : Fin 128) :
    (sitofp (F := Ideal) .f32 (extui 32 (cmpi .eq
        (broadcastTo S8x2048x128 (k0_pay3 (F := Ideal) x) broadcasts_S8x2048x1_S8x2048x128)
        (broadcastTo S8x2048x128 (addi (iota .tc S1x1x128 32 [2] iota_S1x1x128_d2_w32) (broadcast S1x1x128 off))
          broadcasts_S1x1x128_S8x2048x128)) natLt_1_32)) (ix3 r p b)
      = if bin (x (ix2 r p)) = BitVec.ofNat 32 b.val + off then 1 else 0 := by
  -- the pixel's bin, repeated along the 128 lanes
  have e1 : broadcastTo S8x2048x128 (k0_pay3 (F := Ideal) x) broadcasts_S8x2048x1_S8x2048x128 (ix3 r p b)
      = bin (x (ix2 r p)) :=
    (broadcastTo_apply _ _ (ix3 r p b) (ix3 r p (0 : Fin 1))
      (fun a => match a with | ⟨0, _⟩ => rfl | ⟨1, _⟩ => rfl | ⟨2, _⟩ => rfl)).trans (pay3_apply x r p 0)
  -- the lane's bin number, repeated over planes and pixels
  have e2 : broadcastTo S8x2048x128 (addi (iota .tc S1x1x128 32 [2] iota_S1x1x128_d2_w32) (broadcast S1x1x128 off))
      broadcasts_S1x1x128_S8x2048x128 (ix3 r p b) = BitVec.ofNat 32 b.val + off := by
    refine (broadcastTo_apply _ _ (ix3 r p b) (ix3 (0 : Fin 1) (0 : Fin 1) b)
      (fun a => match a with | ⟨0, _⟩ => rfl | ⟨1, _⟩ => rfl | ⟨2, _⟩ => rfl)).trans ?_
    show iota .tc S1x1x128 32 [2] iota_S1x1x128_d2_w32 (ix3 (0 : Fin 1) (0 : Fin 1) b) + off = _
    rw [iota_single_apply]
  show ((((IntOp.cmpi .eq
      (broadcastTo S8x2048x128 (k0_pay3 (F := Ideal) x) broadcasts_S8x2048x1_S8x2048x128 (ix3 r p b))
      (broadcastTo S8x2048x128 (addi (iota .tc S1x1x128 32 [2] iota_S1x1x128_d2_w32) (broadcast S1x1x128 off))
        broadcasts_S1x1x128_S8x2048x128 (ix3 r p b))).setWidth 32).toInt : ℝ) : EReal) = _
  rw [e1, e2]
  exact onehot_eq _ _

/-- The low half: what the accumulator held plus the tile's hits of bin `b` in plane `r`. -/
theorem pay4_apply (x : Vec Ideal S8x2048 .f32) (v : Vec Ideal S8x128 .f32) (r : Fin 8) (b : Fin 128) :
    k0_pay4 (F := Ideal) x v (ix2 r b) = v (ix2 r b) + ∑ p : Fin 2048, hit (x (ix2 r p)) b.val := by
  unfold k0_pay4
  refine (congrFun (shapeCast_self _ _) (ix2 r b)).trans ?_
  refine congrArg (fun t => v (ix2 r b) + t) ?_
  refine (Ideal.multiReduction_add_single _ _ reduces_S8x2048x128_S8x128 _ _ (ix2 r b)).trans ?_
  refine Finset.sum_congr rfl (fun (p : Fin 2048) _ => ?_)
  rw [lift_eq r b p]
  refine (term_apply x 0#32 r p b).trans ?_
  rw [BitVec.add_zero]
  rfl

/-- The high half: what the accumulator held plus the tile's hits of bin `b + 128` in plane `r`. -/
theorem pay15_apply (x : Vec Ideal S8x2048 .f32) (v : Vec Ideal S8x128 .f32) (r : Fin 8) (b : Fin 128) :
    k0_pay1 (F := Ideal) (k0_pay5 (F := Ideal) x v) (ix2 r b) = v (ix2 r b) + ∑ p : Fin 2048, hit (x (ix2 r p)) (b.val + 128) := by
  unfold k0_pay1
  refine (congrFun (shapeCast_self _ _) (ix2 r b)).trans ?_
  unfold k0_pay5
  refine congrArg (fun t => v (ix2 r b) + t) ?_
  refine (Ideal.multiReduction_add_single _ _ reduces_S8x2048x128_S8x128 _ _ (ix2 r b)).trans ?_
  refine Finset.sum_congr rfl (fun (p : Fin 2048) _ => ?_)
  rw [lift_eq r b p]
  refine (term_apply x 128#32 r p b).trans ?_
  rw [← BitVec.ofNat_add]
  rfl

/-! ## Second pallas_call (payloads `k1_pay·`: the same body) -/

/-- The same for the second pallas_call's body. -/
theorem pay2_apply' (r : Fin 8) (b : Fin 256) : k1_pay2 (F := Ideal) (ix2 r b) = 0 := pay2_apply r b

/-- The same for the second pallas_call's body. -/
theorem pay4_apply' (x : Vec Ideal S8x2048 .f32) (v : Vec Ideal S8x128 .f32) (r : Fin 8) (b : Fin 128) :
    k1_pay4 (F := Ideal) x v (ix2 r b) = v (ix2 r b) + ∑ p : Fin 2048, hit (x (ix2 r p)) b.val := pay4_apply x v r b

/-- The same for the second pallas_call's body. -/
theorem pay15_apply' (x : Vec Ideal S8x2048 .f32) (v : Vec Ideal S8x128 .f32) (r : Fin 8) (b : Fin 128) :
    k1_pay1 (F := Ideal) (k1_pay5 (F := Ideal) x v) (ix2 r b) = v (ix2 r b) + ∑ p : Fin 2048, hit (x (ix2 r p)) (b.val + 128) :=
  pay15_apply x v r b

end Cert.KernelIdeal.PayIdeal

end
-- ==== Proof.KI.Tile0.lean ====
/-
  First pallas_call: the input window's block, entry by entry.

  Point t works on plane group t / 128 and pixel tile t % 128; its block is 8 planes × 2048 pixels of the
  48 × 262144 array.  Entry (r, p) of the block is the array's entry (8·(t / 128) + r, 2048·(t % 128) + p): a
  block's coordinate is the block index times the block's size plus the coordinate inside the block.
-/
import proofs.«181613_j80625126080915_1_alg».proof.Proof.KI.Region0
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

/-- Window 0's block index at point `t`: plane group `t / 128` on the rows, pixel tile `t % 128` on the pixels. -/
theorem in_idx_facts : ∀ t : Fin cfg0.N, win0_0.index t (0 : Fin 2) = t.val / 128 ∧ win0_0.index t (1 : Fin 2) = t.val % 128 :=
  (by decide +kernel : ∀ t : Fin grid0.N, _)

/-- Entry (r, p) of point `t`'s block is the array's entry (8·(t / 128) + r, 2048·(t % 128) + p). -/
theorem in_emb_eq (t : Fin cfg0.N) (r : Fin 8) (p : Fin 2048)
    (h1 : 8 * (t.val / 128) + r.val < 48) (h2 : 2048 * (t.val % 128) + p.val < 262144) :
    ((cfg0.win 0).blk t).view.emb (ix2 r p)
      = (ix2 (⟨8 * (t.val / 128) + r.val, h1⟩ : Fin 48) (⟨2048 * (t.val % 128) + p.val, h2⟩ : Fin 262144) : S48x262144.Idx) := by
  obtain ⟨e0, e1⟩ := in_idx_facts t
  funext a
  apply Fin.ext
  match a with
  | ⟨0, _⟩ =>
    show win0_0.index t (0 : Fin 2) * 8 + 1 * r.val = 8 * (t.val / 128) + r.val
    rw [e0]; omega
  | ⟨1, _⟩ =>
    show win0_0.index t (1 : Fin 2) * 2048 + 1 * p.val = 2048 * (t.val % 128) + p.val
    rw [e1]; omega

/-- So point `t`'s block of an array `G`, read at (r, p), is `G` at (8·(t / 128) + r, 2048·(t % 128) + p). -/
theorem in_read_blk (t : Fin cfg0.N) (G : S48x262144.Idx → Elt F .f32) (r : Fin 8) (p : Fin 2048)
    (h1 : 8 * (t.val / 128) + r.val < 48) (h2 : 2048 * (t.val % 128) + p.val < 262144) :
    ((cfg0.win 0).blk t).view.read (Elt F) G (ix2 r p)
      = G (ix2 (⟨8 * (t.val / 128) + r.val, h1⟩ : Fin 48) (⟨2048 * (t.val % 128) + p.val, h2⟩ : Fin 262144)) := by
  rw [View.read_apply, in_emb_eq t r p h1 h2]
  rfl

/-- The input block at point `t`, entry (r, p): the array the region read at plane 8·(t / 128) + r,
    pixel 2048·(t % 128) + p. -/
theorem iblk0_apply (c : Dev nD) (t : Fin cfg0.N) (r : Fin 8) (p : Fin 2048) (h1 : 8 * (t.val / 128) + r.val < 48) (h2 : 2048 * (t.val % 128) + p.val < 262144) : (iblk0 V c 0 t : Vec F S8x2048 .f32) (ix2 r p) = (V c main_v0 : S48x262144.Idx → Elt F .f32) (ix2 (⟨8 * (t.val / 128) + r.val, h1⟩ : Fin 48) (⟨2048 * (t.val % 128) + p.val, h2⟩ : Fin 262144)) := by
  unfold iblk0
  exact in_read_blk t _ r p h1 h2

end Cert.KernelIdeal.Val

end
-- ==== Proof.KI.Value0.lean ====
/-
  First pallas_call at the extended reals: the accumulator after every grid point, in closed form.

  Point t works on plane group t / 128 and pixel tile t % 128; row r of its tile is plane 8·(t / 128) + r and its
  2048 pixels are the plane's pixels 2048·(t % 128) … 2048·(t % 128) + 2047.  After the point the accumulator's entry
  (r, b) counts the pixels of that plane among the first 2048·(t % 128 + 1) that fall in bin b: zero plus the first
  tile's hits at a group's first tile, the count so far plus this tile's hits afterwards.  At a group's last tile the
  output block is a copy of the accumulator: the plane's whole histogram row.
-/
import proofs.«181613_j80625126080915_1_alg».proof.Proof.KI.Region0
import proofs.«181613_j80625126080915_1_alg».proof.Proof.PayIdeal
import proofs.«181613_j80625126080915_1_alg».proof.Proof.SpecLaws
import proofs.«181613_j80625126080915_1_alg».proof.Proof.KI.Tile0
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open Idealize.ShloMosaic.Pipeline (Dat)
open Idealize.ShloMosaic.Tactic

variable (V : (c : Dev nD) → (b : Ref sig .tc) → Buf (Elt Ideal) ((c : Thread nD τ).loc b))

/-! ## The accumulator's two halves

The accumulator is 8 rows of 256 bins; the body stores its low 128 columns and its high 128 columns separately. -/

section Halves

variable {Val : EltTy → Type} [∀ e, Nonempty (Val e)]

/-- Columns 0 … 127. -/
abbrev rLo : Rect S8x256 := Rect.unit (s := S8x256) ![0, 0] S8x128.size inb_S8x256_S8x128_0_0
/-- Columns 128 … 255. -/
abbrev rHi : Rect S8x256 := Rect.unit (s := S8x256) ![0, 128] S8x128.size inb_S8x256_S8x128_0_128
/-- All 256 columns. -/
abbrev rAll : Rect S8x256 := Rect.unit (s := S8x256) ![0, 0] S8x256.size inb_S8x256_S8x256_0_0

theorem zeros2 : (![0, 0] : Fin 2 → ℕ) = fun _ => 0 := by
  funext a
  match a with
  | ⟨0, _⟩ => rfl
  | ⟨1, _⟩ => rfl

/-- Entry (r, b') of the low half is entry (r, b') of the accumulator. -/
theorem rLo_idx (r : Fin 8) (b' : Fin 128) (b : Fin 256) (hb : b.val = b'.val) : rLo.idx (ix2 r b') = ix2 r b := by
  funext a
  apply Fin.ext
  match a with
  | ⟨0, _⟩ => show 0 + 1 * r.val = r.val; omega
  | ⟨1, _⟩ => show 0 + 1 * b'.val = b.val; omega

/-- Entry (r, b') of the high half is entry (r, b' + 128) of the accumulator. -/
theorem rHi_idx (r : Fin 8) (b' : Fin 128) (b : Fin 256) (hb : b.val = b'.val + 128) : rHi.idx (ix2 r b') = ix2 r b := by
  funext a
  apply Fin.ext
  match a with
  | ⟨0, _⟩ => show 0 + 1 * r.val = r.val; omega
  | ⟨1, _⟩ => show 128 + 1 * b'.val = b.val; omega

/-- An entry of the low columns is not in the high half. -/
theorem not_mem_rHi (r : Fin 8) (b : Fin 256) (h : b.val < 128) : ix2 r b ∉ rHi.set := by
  intro hm
  have h1 := Rect.mem_set_unit.mp hm (⟨1, Nat.one_lt_two⟩ : Fin 2)
  have h2 : 128 ≤ b.val := h1.1
  omega

/-- An entry of the high columns is not in the low half. -/
theorem not_mem_rLo (r : Fin 8) (b : Fin 256) (h : 128 ≤ b.val) : ix2 r b ∉ rLo.set := by
  intro hm
  have h1 := Rect.mem_set_unit.mp hm (⟨1, Nat.one_lt_two⟩ : Fin 2)
  have h2 : b.val < 0 + 128 := h1.2
  omega

/-- After a store of the low half and then one of the high half, an entry of the low columns holds the low store's
    value … -/
theorem canon_halves_lo (wHi wLo : S8x128.Idx → Val .f32) (L : List (View.Piece Val S8x256 .f32)) (r : Fin 8)
    (b' : Fin 128) (b : Fin 256) (hb : b.val = b'.val) :
    View.canon ((⟨rHi, wHi⟩ : View.Piece Val S8x256 .f32) :: ⟨rLo, wLo⟩ :: L) (ix2 r b) = wLo (ix2 r b') := by
  refine (View.canon_cons_of_not_mem (⟨rHi, wHi⟩ : View.Piece Val S8x256 .f32) (⟨rLo, wLo⟩ :: L)
    (not_mem_rHi r b (by omega))).trans ?_
  rw [← rLo_idx r b' b hb]
  exact View.canon_cons_emb rLo wLo L (ix2 r b')

/-- … and an entry of the high columns holds the high store's value. -/
theorem canon_halves_hi (wHi wLo : S8x128.Idx → Val .f32) (L : List (View.Piece Val S8x256 .f32)) (r : Fin 8)
    (b' : Fin 128) (b : Fin 256) (hb : b.val = b'.val + 128) :
    View.canon ((⟨rHi, wHi⟩ : View.Piece Val S8x256 .f32) :: ⟨rLo, wLo⟩ :: L) (ix2 r b) = wHi (ix2 r b') := by
  rw [← rHi_idx r b' b hb]
  exact View.canon_cons_emb rHi wHi (⟨rLo, wLo⟩ :: L) (ix2 r b')

/-- The two halves' stores leave no entry of the accumulator unwritten. -/
theorem cover_halves (wHi wLo : S8x128.Idx → Val .f32) (y : S8x256.Idx) :
    ∃ p ∈ [(⟨rHi, wHi⟩ : View.Piece Val S8x256 .f32), ⟨rLo, wLo⟩], y ∈ p.1.set := by
  obtain ⟨r, b, rfl⟩ : ∃ (r : Fin 8) (b : Fin 256), y = ix2 r b := ⟨y 0, y 1, eq_ix2 y⟩
  by_cases h : b.val < 128
  · refine ⟨⟨rLo, wLo⟩, List.mem_cons_of_mem _ (List.mem_singleton_self _), ?_⟩
    rw [← rLo_idx r ⟨b.val, h⟩ b rfl]
    exact rLo.idx_mem _
  · refine ⟨⟨rHi, wHi⟩, List.mem_cons_self, ?_⟩
    rw [← rHi_idx r ⟨b.val - 128, by omega⟩ b (by show b.val = b.val - 128 + 128; omega)]
    exact rHi.idx_mem _

/-- A load, through any rectangle, of what one store of all columns left reads the stored value there. -/
theorem readCov_all {sig : RefSig} {κ : Kind} {sp : Space} (v : View sig κ sp S8x256 .f32) (w : S8x256.Idx → Val .f32)
    (B : Rect S8x256) :
    v.readCov [(⟨rAll, w⟩ : View.Piece Val S8x256 .f32)] B.toLoadRect = View.ld w B := by
  rw [View.readCov_eq_canon_ld v [(⟨rAll, w⟩ : View.Piece Val S8x256 .f32)] B
    (fun y => ⟨⟨rAll, w⟩, List.mem_singleton_self _, View.mem_set_unit_zero zeros2 inb_S8x256_S8x256_0_0 y⟩)]
  rw [View.canon_unit_zero zeros2 inb_S8x256_S8x256_0_0 w]

/-- A load of the high half after a store of all columns and then one of the low half still reads the first store. -/
theorem readCov_lo_all_hi {sig : RefSig} {κ : Kind} {sp : Space} (v : View sig κ sp S8x256 .f32)
    (wLo : S8x128.Idx → Val .f32) (w : S8x256.Idx → Val .f32) :
    v.readCov [(⟨rLo, wLo⟩ : View.Piece Val S8x256 .f32), ⟨rAll, w⟩] rHi.toLoadRect = View.ld w rHi := by
  rw [View.readCov_eq_canon_ld v [(⟨rLo, wLo⟩ : View.Piece Val S8x256 .f32), ⟨rAll, w⟩] rHi
    (fun y => ⟨⟨rAll, w⟩, List.mem_cons_of_mem _ (List.mem_singleton_self _), View.mem_set_unit_zero zeros2 inb_S8x256_S8x256_0_0 y⟩)]
  funext x
  obtain ⟨r, b, rfl⟩ : ∃ (r : Fin 8) (b : Fin 128), x = ix2 r b := ⟨x 0, x 1, eq_ix2 x⟩
  show View.canon [(⟨rLo, wLo⟩ : View.Piece Val S8x256 .f32), ⟨rAll, w⟩] (rHi.idx (ix2 r b)) = w (rHi.idx (ix2 r b))
  rw [rHi_idx r b ⟨b.val + 128, by omega⟩ rfl]
  refine (View.canon_cons_of_not_mem (⟨rLo, wLo⟩ : View.Piece Val S8x256 .f32) [⟨rAll, w⟩]
    (not_mem_rLo r ⟨b.val + 128, by omega⟩ (by show 128 ≤ b.val + 128; omega))).trans ?_
  rw [View.canon_unit_zero zeros2 inb_S8x256_S8x256_0_0 w]

/-- A load of all columns after the two halves' stores reads what they left. -/
theorem readCov_halves_all {sig : RefSig} {κ : Kind} {sp : Space} (v : View sig κ sp S8x256 .f32)
    (wHi wLo : S8x128.Idx → Val .f32) :
    v.readCov [(⟨rHi, wHi⟩ : View.Piece Val S8x256 .f32), ⟨rLo, wLo⟩] rAll.toLoadRect
      = View.canon [(⟨rHi, wHi⟩ : View.Piece Val S8x256 .f32), ⟨rLo, wLo⟩] := by
  rw [View.readCov_eq_canon_ld v [(⟨rHi, wHi⟩ : View.Piece Val S8x256 .f32), ⟨rLo, wLo⟩] rAll (cover_halves wHi wLo)]
  exact View.ld_unit_zero zeros2 inb_S8x256_S8x256_0_0 _

end Halves

/-! ## What each case leaves, as the two halves' stores -/

section Pieces

variable {F : FTy → Type} [FloatOps F]

/-- A later tile: each half of the accumulator is replaced by the body's update of what that half held. -/
theorem accB_eq (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : ¬cond0_1 i) (x0 : Vec F S8x2048 .f32) (xs0 : Vec F S8x256 .f32) :
    sout0_B_0 c i arg2 harg2 arg3 harg3 arg4 harg4 hc0 hc1 x0 xs0
      = View.canon [(⟨rHi, k0_pay1 (k0_pay5 x0 (View.ld (Val := Elt F) xs0 rHi))⟩ : View.Piece (Elt F) S8x256 .f32),
          ⟨rLo, k0_pay4 x0 (View.ld (Val := Elt F) xs0 rLo)⟩] := by
  unfold sout0_B_0
  rw [View.read_writes_eq_canon _ _ _ (scover0_B_0 c i arg2 harg2 arg3 harg3 arg4 harg4 hc0 hc1 x0 xs0)]
  unfold kernelRun0_B
  dsimp only
  sl_unfold_words
  simp only [View.readAt_eq_ld, harg2.read_unread, harg4.read_unread, View.ld_unit_zero (S := S8x2048) zeros2]

/-- A group's last tile: the accumulator as at any later tile. -/
theorem accC_eq (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i) (x0 : Vec F S8x2048 .f32) (xs0 : Vec F S8x256 .f32) :
    sout0_C_0 c i arg2 harg2 arg3 harg3 arg4 harg4 hc0 hc1 x0 xs0
      = View.canon [(⟨rHi, k0_pay1 (k0_pay5 x0 (View.ld (Val := Elt F) xs0 rHi))⟩ : View.Piece (Elt F) S8x256 .f32),
          ⟨rLo, k0_pay4 x0 (View.ld (Val := Elt F) xs0 rLo)⟩] := by
  unfold sout0_C_0
  rw [View.read_writes_eq_canon _ _ _ (scover0_C_0 c i arg2 harg2 arg3 harg3 arg4 harg4 hc0 hc1 x0 xs0)]
  unfold kernelRun0_C
  dsimp only
  sl_unfold_words
  simp only [View.readAt_eq_ld, harg2.read_unread, harg4.read_unread, View.ld_unit_zero (S := S8x2048) zeros2]

/-- A group's last tile: the output block is a copy of the accumulator after the two stores. -/
theorem outC_eq (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond0_0 i) (hc1 : cond0_1 i) (x0 : Vec F S8x2048 .f32) (xs0 : Vec F S8x256 .f32) :
    out0_C_1 c i arg2 harg2 arg3 harg3 arg4 harg4 hc0 hc1 x0 xs0
      = View.canon [(⟨rHi, k0_pay1 (k0_pay5 x0 (View.ld (Val := Elt F) xs0 rHi))⟩ : View.Piece (Elt F) S8x256 .f32),
          ⟨rLo, k0_pay4 x0 (View.ld (Val := Elt F) xs0 rLo)⟩] := by
  unfold out0_C_1
  rw [View.read_writes_eq_canon _ _ _ (cover0_C_1 c i arg2 harg2 arg3 harg3 arg4 harg4 hc0 hc1 x0 xs0)]
  unfold kernelRun0_C
  dsimp only
  sl_unfold_words
  simp only [View.readAt_eq_ld, harg2.read_unread, harg4.read_unread, View.ld_unit_zero (S := S8x2048) zeros2]
  rw [readCov_halves_all (Val := Elt F) arg4.view (k0_pay1 (k0_pay5 x0 (View.ld (Val := Elt F) xs0 rHi)))
    (k0_pay4 x0 (View.ld (Val := Elt F) xs0 rLo))]
  exact View.canon_unit_zero (S := S8x256) zeros2 inb_S8x256_S8x256_0_0 _

/-- A group's first tile: the same two stores over the reset value, which the body stored first. -/
theorem accA_eq (c : Dev nD) (i : grid0.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond0_0 i) (hc1 : ¬cond0_1 i) (x0 : Vec F S8x2048 .f32) :
    sout0_A_0 c i arg2 harg2 arg3 harg3 arg4 harg4 hc0 hc1 x0
      = View.canon [(⟨rHi, k0_pay1 (k0_pay5 x0 (View.ld (Val := Elt F) (k0_pay2 (F := F)) rHi))⟩ : View.Piece (Elt F) S8x256 .f32),
          ⟨rLo, k0_pay4 x0 (View.ld (Val := Elt F) (k0_pay2 (F := F)) rLo)⟩, ⟨rAll, k0_pay2 (F := F)⟩] := by
  unfold sout0_A_0
  rw [View.read_writes_eq_canon _ _ _ (scover0_A_0 c i arg2 harg2 arg3 harg3 arg4 harg4 hc0 hc1 x0)]
  unfold kernelRun0_A
  dsimp only
  sl_unfold_words
  simp only [View.readAt_eq_ld, harg2.read_unread, View.ld_unit_zero (S := S8x2048) zeros2]
  rw [readCov_all (Val := Elt F) arg4.view (k0_pay2 (F := F)) rLo]
  rw [readCov_lo_all_hi (Val := Elt F) arg4.view (k0_pay4 x0 (View.ld (Val := Elt F) (k0_pay2 (F := F)) rLo)) (k0_pay2 (F := F))]

end Pieces

/-! ## The update at the extended reals -/

section AtIndex

open Cert.KernelIdeal.PayIdeal

/-- The two stores over previous contents X: entry (r, b) gains the number of the tile's pixels of row r in bin b. -/
theorem upd_apply (x0 : Vec Ideal S8x2048 .f32) (X : Vec Ideal S8x256 .f32)
    (L : List (View.Piece (Elt Ideal) S8x256 .f32)) (r : Fin 8) (b : Fin 256) :
    View.canon ((⟨rHi, k0_pay1 (F := Ideal) (k0_pay5 (F := Ideal) x0 (View.ld (Val := Elt Ideal) X rHi))⟩ :
        View.Piece (Elt Ideal) S8x256 .f32) :: ⟨rLo, k0_pay4 (F := Ideal) x0 (View.ld (Val := Elt Ideal) X rLo)⟩ :: L) (ix2 r b)
      = X (ix2 r b) + ∑ p : Fin 2048, hit (x0 (ix2 r p)) b.val := by
  by_cases h : b.val < 128
  · refine (canon_halves_lo (Val := Elt Ideal) (k0_pay1 (F := Ideal) (k0_pay5 (F := Ideal) x0 (View.ld (Val := Elt Ideal) X rHi)))
      (k0_pay4 (F := Ideal) x0 (View.ld (Val := Elt Ideal) X rLo)) L r ⟨b.val, h⟩ b rfl).trans ?_
    refine (pay4_apply x0 (View.ld (Val := Elt Ideal) X rLo) r ⟨b.val, h⟩).trans ?_
    show X (rLo.idx (ix2 r (⟨b.val, h⟩ : Fin 128))) + ∑ p : Fin 2048, hit (x0 (ix2 r p)) b.val = _
    rw [rLo_idx r ⟨b.val, h⟩ b rfl]
  · have h' : 128 ≤ b.val := Nat.le_of_not_lt h
    have hb : b.val - 128 < 128 := by omega
    have e : b.val = b.val - 128 + 128 := by omega
    refine (canon_halves_hi (Val := Elt Ideal) (k0_pay1 (F := Ideal) (k0_pay5 (F := Ideal) x0 (View.ld (Val := Elt Ideal) X rHi)))
      (k0_pay4 (F := Ideal) x0 (View.ld (Val := Elt Ideal) X rLo)) L r ⟨b.val - 128, hb⟩ b e).trans ?_
    refine (pay15_apply x0 (View.ld (Val := Elt Ideal) X rHi) r ⟨b.val - 128, hb⟩).trans ?_
    show X (rHi.idx (ix2 r (⟨b.val - 128, hb⟩ : Fin 128))) + ∑ p : Fin 2048, hit (x0 (ix2 r p)) (b.val - 128 + 128) = _
    rw [rHi_idx r ⟨b.val - 128, hb⟩ b e, ← e]

/-- One tile's step of the count: what was counted before the tile plus the tile's hits is what is counted after it. -/
theorem step_count (X : FVec Ideal SX .f32) (pl : Fin 48) (k : ℕ) (T : ℕ) (hT : T < 128) (x : Vec Ideal S8x2048 .f32)
    (r : Fin 8) (hx : ∀ p : Fin 2048, x (ix2 r p) = X (ix2 pl (⟨2048 * T + p.val, by omega⟩ : Fin 262144)))
    (a : EReal) (ha : a = countUpTo X pl k (2048 * T)) :
    a + ∑ p : Fin 2048, hit (x (ix2 r p)) k = countUpTo X pl k (2048 * (T + 1)) := by
  rw [countUpTo_tile X pl k T (by omega), ha]
  refine congrArg (fun s => countUpTo X pl k (2048 * T) + s) ?_
  refine Finset.sum_congr rfl (fun p _ => ?_)
  rw [hx p]

end AtIndex

/-- The plane that row `r` of point `t`'s tile belongs to. -/
def planeOf0 (t : Fin cfg0.N) (r : Fin 8) : Fin 48 :=
  ⟨8 * (t.val / 128) + r.val, by have h : t.val < 768 := lt_of_lt_of_eq t.isLt N_0; have := r.isLt; omega⟩

/-! ## The count after every point -/

/-- Point t's input tile: 8 rows of 2048 pixels. -/
abbrev xblk (c : Dev nD) (t : Fin cfg0.N) : Vec Ideal S8x2048 .f32 := iblk0 V c 0 t
/-- The 48 planes as the region finds them. -/
abbrev xarr (c : Dev nD) : FVec Ideal SX .f32 := V c main_v0

/-- Row r of point t's tile is pixels 2048·(t % 128) … of the row's plane. -/
theorem xblk_apply (c : Dev nD) (t : Fin cfg0.N) (r : Fin 8) (p : Fin 2048) :
    xblk V c t (ix2 r p)
      = xarr V c (ix2 (planeOf0 t r) (⟨2048 * (t.val % 128) + p.val, by omega⟩ : Fin 262144)) :=
  iblk0_apply V c t r p (planeOf0 t r).isLt (by omega)

/-- The accumulator after the point at position n, by induction on n: a group's first tile counts from zero, every
    later tile from what the tile before left, which is the count for the same plane one tile earlier. -/
theorem acc_closed_aux (c : Dev nD) : ∀ (n : ℕ) (t : Fin cfg0.N), t.val = n → ∀ (r : Fin 8) (b : Fin 256),
    (outsAt0 (F := Ideal) V c t.val t.isLt).2 (ix2 r b)
      = countUpTo (xarr V c) (planeOf0 t r) b.val (2048 * (t.val % 128 + 1)) := by
  intro n
  induction n using Nat.strong_induction_on with
  | _ n ih =>
    intro t ht r b
    subst ht
    have hT : t.val % 128 < 128 := Nat.mod_lt _ (by norm_num)
    by_cases h0 : t.val % 128 = 0
    · have h1 : ¬t.val % 128 = 127 := by omega
      rw [outsAt0_A V c t h0 h1]
      dsimp only
      refine (congrFun (accA_eq (F := Ideal) c (grid0.coords t) (ms0_0 t) (hs0_0 t) (ms0_1 t) (hs0_1 t) scM0_0
        (Memref.isWhole_whole _) ((hcond0_0 t).mpr h0) (fun h => h1 ((hcond0_1 t).mp h)) (xblk V c t)) (ix2 r b)).trans ?_
      refine (upd_apply (xblk V c t) (k0_pay2 (F := Ideal)) [⟨rAll, k0_pay2 (F := Ideal)⟩] r b).trans ?_
      refine step_count (xarr V c) (planeOf0 t r) b.val (t.val % 128) hT (xblk V c t) r
        (fun p => xblk_apply V c t r p) (k0_pay2 (F := Ideal) (ix2 r b)) ?_
      rw [Cert.KernelIdeal.PayIdeal.pay2_apply r b, h0, Nat.mul_zero, countUpTo_zero]
    · have hpos : 0 < t.val := by omega
      have hlt' : t.val - 1 < cfg0.N := Nat.lt_of_le_of_lt (Nat.sub_le _ _) t.isLt
      have iht := ih (t.val - 1) (by omega) ⟨t.val - 1, hlt'⟩ rfl r b
      have hpl : planeOf0 ⟨t.val - 1, hlt'⟩ r = planeOf0 t r :=
        Fin.ext (by show 8 * ((t.val - 1) / 128) + r.val = 8 * (t.val / 128) + r.val; omega)
      have hmod : (t.val - 1) % 128 + 1 = t.val % 128 := by omega
      have hprev : (outsAt0 (F := Ideal) V c (t.val - 1) hlt').2 (ix2 r b)
          = countUpTo (xarr V c) (planeOf0 t r) b.val (2048 * (t.val % 128)) := by
        rw [← hpl, ← hmod]
        exact iht
      by_cases h1 : t.val % 128 = 127
      · rw [outsAt0_C V c t h0 h1]
        dsimp only
        refine (congrFun (accC_eq (F := Ideal) c (grid0.coords t) (ms0_0 t) (hs0_0 t) (ms0_1 t) (hs0_1 t) scM0_0
          (Memref.isWhole_whole _) (fun h => h0 ((hcond0_0 t).mp h)) ((hcond0_1 t).mpr h1) (xblk V c t)
          (outsAt0 (F := Ideal) V c (t.val - 1) hlt').2) (ix2 r b)).trans ?_
        refine (upd_apply (xblk V c t) (outsAt0 (F := Ideal) V c (t.val - 1) hlt').2 [] r b).trans ?_
        exact step_count (xarr V c) (planeOf0 t r) b.val (t.val % 128) hT (xblk V c t) r
          (fun p => xblk_apply V c t r p) ((outsAt0 (F := Ideal) V c (t.val - 1) hlt').2 (ix2 r b)) hprev
      · rw [outsAt0_B V c t h0 h1]
        dsimp only
        refine (congrFun (accB_eq (F := Ideal) c (grid0.coords t) (ms0_0 t) (hs0_0 t) (ms0_1 t) (hs0_1 t) scM0_0
          (Memref.isWhole_whole _) (fun h => h0 ((hcond0_0 t).mp h)) (fun h => h1 ((hcond0_1 t).mp h)) (xblk V c t)
          (outsAt0 (F := Ideal) V c (t.val - 1) hlt').2) (ix2 r b)).trans ?_
        refine (upd_apply (xblk V c t) (outsAt0 (F := Ideal) V c (t.val - 1) hlt').2 [] r b).trans ?_
        exact step_count (xarr V c) (planeOf0 t r) b.val (t.val % 128) hT (xblk V c t) r
          (fun p => xblk_apply V c t r p) ((outsAt0 (F := Ideal) V c (t.val - 1) hlt').2 (ix2 r b)) hprev

/-- The accumulator after point `t`: the counts over the tiles of the plane group seen so far. -/
theorem acc_closed0 (c : Dev nD) (t : Fin cfg0.N) (r : Fin 8) (b : Fin 256) :
    (outsAt0 (F := Ideal) V c t.val t.isLt).2 (ix2 r b)
      = countUpTo (V c main_v0) (planeOf0 t r) b.val (2048 * (t.val % 128 + 1)) := by
  exact acc_closed_aux V c t.val t rfl r b

/-- The output block at a group's last tile: the histogram rows of the group's planes. -/
theorem out_closed0 (c : Dev nD) (t : Fin cfg0.N) (h : t.val % 128 = 127) (r : Fin 8) (b : Fin 256) :
    (outsAt0 (F := Ideal) V c t.val t.isLt).1 (ix2 r b) = hist (V c main_v0) (ix2 (planeOf0 t r) b) := by
  have h0 : ¬t.val % 128 = 0 := by omega
  have hlt' : t.val - 1 < cfg0.N := Nat.lt_of_le_of_lt (Nat.sub_le _ _) t.isLt
  have key : (outsAt0 (F := Ideal) V c t.val t.isLt).1 = (outsAt0 (F := Ideal) V c t.val t.isLt).2 := by
    rw [outsAt0_C V c t h0 h]
    dsimp only
    exact (outC_eq (F := Ideal) c (grid0.coords t) (ms0_0 t) (hs0_0 t) (ms0_1 t) (hs0_1 t) scM0_0
        (Memref.isWhole_whole _) (fun h' => h0 ((hcond0_0 t).mp h')) ((hcond0_1 t).mpr h) (xblk V c t)
        (outsAt0 (F := Ideal) V c (t.val - 1) hlt').2).trans
      (accC_eq (F := Ideal) c (grid0.coords t) (ms0_0 t) (hs0_0 t) (ms0_1 t) (hs0_1 t) scM0_0
        (Memref.isWhole_whole _) (fun h' => h0 ((hcond0_0 t).mp h')) ((hcond0_1 t).mpr h) (xblk V c t)
        (outsAt0 (F := Ideal) V c (t.val - 1) hlt').2).symm
  rw [key, acc_closed0 V c t r b, h]
  exact countUpTo_full (V c main_v0) (planeOf0 t r) b

end Cert.KernelIdeal.Val

end
-- ==== Proof.KI.Cover0.lean ====
/-
  First pallas_call at the extended reals: the output array after the run is the histogram of the input array.

  The output window is written back at the last tile of each of the six plane groups; block g holds rows
  8g … 8g + 7 of the histogram (Value0), the six blocks tile the 48 × 256 array, so the array ends as the histogram.
-/
import proofs.«181613_j80625126080915_1_alg».proof.Proof.KI.Value0
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Window 1's block index at point `t`: plane group `t / 128` on the rows, `0` on the bins. -/
theorem idx_facts : ∀ t : Fin cfg0.N, win0_1.index t (0 : Fin 2) = t.val / 128 ∧ win0_1.index t (1 : Fin 2) = 0 :=
  (by decide +kernel : ∀ t : Fin grid0.N, _)

/-- The write-back moves the whole block: the part of a block's contents it writes is the contents. -/
theorem cut_eq {α : Type} (t : Fin cfg0.N) (X : S8x256.Idx → α) (y : S8x256.Idx) :
    (cfg0.win 1).cut (grid0.coords t) X y = X y :=
  congrArg X (funext fun a => Fin.ext rfl)

/-- Entry (r, b) of point `t`'s block is the array's entry (8·(t / 128) + r, b): a block's coordinate is the block
    index times the block's size plus the coordinate inside the block. -/
theorem emb_eq (t : Fin cfg0.N) (r : Fin 8) (b : Fin 256) :
    ((cfg0.win 1).blk t).view.emb (ix2 r b) = (ix2 (planeOf0 t r) b : S48x256.Idx) := by
  obtain ⟨e0, e1⟩ := idx_facts t
  funext a
  apply Fin.ext
  match a with
  | ⟨0, _⟩ =>
    show win0_1.index t (0 : Fin 2) * 8 + 1 * r.val = 8 * (t.val / 128) + r.val
    rw [e0]; omega
  | ⟨1, _⟩ =>
    show win0_1.index t (1 : Fin 2) * 256 + 1 * b.val = b.val
    rw [e1]; omega

/-- So point `t`'s block of an array `G`, read at (r, b), is `G` at (8·(t / 128) + r, b). -/
theorem read_blk (t : Fin cfg0.N) (G : FVec Ideal S48x256 .f32) (r : Fin 8) (b : Fin 256) :
    ((cfg0.win 1).blk t).view.read (Elt Ideal) G (ix2 r b) = G (ix2 (planeOf0 t r) b) := by
  rw [View.read_apply, emb_eq t r b]
  rfl

/-- What a group's last tile writes back is its block of the histogram: entry (r, b) of the block is the histogram
    row of plane 8·(t / 128) + r at bin b. -/
theorem flushed_eq (c : Dev nD) (t : Fin cfg0.N) (hf : (cfg0.win 1).flush t = true) :
    (dat0 (F := Ideal) V c).flushed 1 t
      = ((cfg0.win 1).blk t).view.read (Elt Ideal) (hist (V c main_v0) : FVec Ideal SH .f32) := by
  show (cfg0.win 1).cut (grid0.coords t) ((dat0 (F := Ideal) V c).after 1 t) = _
  rw [after0_1]
  funext y
  obtain ⟨r, b, rfl⟩ : ∃ (r : Fin 8) (b : Fin 256), y = ix2 r b := ⟨y 0, y 1, eq_ix2 y⟩
  refine (cut_eq t _ (ix2 r b)).trans ?_
  refine (out_closed0 V c t ((flush0_1 t).mp hf) r b).trans ?_
  exact (read_blk t _ r b).symm

/-- An index of the array is in point `t`'s block iff each coordinate is in the block's range on its axis. -/
theorem mem_blk (t : Fin cfg0.N) (i : S48x256.Idx) :
    i ∈ ((cfg0.win 1).blk t).view.set
      ↔ ∀ a : Fin 2, win0_1.index t a * S8x256.size a ≤ (i a).val ∧ (i a).val < win0_1.index t a * S8x256.size a + S8x256.size a := by
  show i ∈ ((View.whole main_v1).slice (win0_1.rect t)).set ↔ _
  rw [View.set_slice_whole, Rect.mem_set_unit]
  exact Iff.rfl

/-- Every entry (q, b) of the array is in the block written back at the last tile of q's plane group, the point
    128·(q / 8) + 127. -/
theorem cover (i : S48x256.Idx) :
    ∃ t : Fin cfg0.N, (cfg0.win 1).flush t = true ∧ i ∈ ((cfg0.win 1).blk t).view.set := by
  have hi0 : (i 0).val < 48 := (i 0).isLt
  have hi1 : (i 1).val < 256 := (i 1).isLt
  have hN : cfg0.N = 768 := N_0
  let t : Fin cfg0.N := ⟨128 * ((i 0).val / 8) + 127, by rw [hN]; omega⟩
  have ht : t.val = 128 * ((i 0).val / 8) + 127 := rfl
  obtain ⟨e0, e1⟩ := idx_facts t
  refine ⟨t, (flush0_1 t).mpr (by rw [ht]; omega), ?_⟩
  rw [mem_blk]
  intro a
  match a with
  | ⟨0, _⟩ =>
    show win0_1.index t (0 : Fin 2) * 8 ≤ (i 0).val ∧ (i 0).val < win0_1.index t (0 : Fin 2) * 8 + 8
    rw [e0, ht]; omega
  | ⟨1, _⟩ =>
    show win0_1.index t (1 : Fin 2) * 256 ≤ (i 1).val ∧ (i 1).val < win0_1.index t (1 : Fin 2) * 256 + 256
    rw [e1]; omega

/-- After the region the output array holds the histogram of the array the region read. -/
theorem arrAt0_1 (c : Dev nD) :
    (dat0 (F := Ideal) V c).arrAt 1 cfg0.N = (hist (V c main_v0) : FVec Ideal SH .f32) :=
  (dat0 (F := Ideal) V c).arrAt_eq_of_cover 1 (hist (V c main_v0) : FVec Ideal SH .f32)
    (fun t hf => flushed_eq V c t hf) (fun i => cover i)

end Cert.KernelIdeal.Val

end
-- ==== Proof.KI.Tile1.lean ====
/-
  Second pallas_call: the input window's block, entry by entry.

  Point t works on plane group t / 128 and pixel tile t % 128; its block is 8 planes × 2048 pixels of the
  48 × 262144 array.  Entry (r, p) of the block is the array's entry (8·(t / 128) + r, 2048·(t % 128) + p): a
  block's coordinate is the block index times the block's size plus the coordinate inside the block.
-/
import proofs.«181613_j80625126080915_1_alg».proof.Proof.KI.Region1
import Idealize.ShloMosaic.Lib.ValueIdx
import Idealize.ShloMosaic.Lib.Pipeline.Value

set_option maxRecDepth 16384

noncomputable section

namespace Cert.KernelIdeal.Val1

open Cert.KernelIdeal Cert.KernelIdeal.Gen Cert.KernelIdeal.Frm
open Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

/-- Window 0's block index at point `t`: plane group `t / 128` on the rows, pixel tile `t % 128` on the pixels. -/
theorem in_idx_facts : ∀ t : Fin cfg1.N, win1_0.index t (0 : Fin 2) = t.val / 128 ∧ win1_0.index t (1 : Fin 2) = t.val % 128 :=
  (by decide +kernel : ∀ t : Fin grid1.N, _)

/-- Entry (r, p) of point `t`'s block is the array's entry (8·(t / 128) + r, 2048·(t % 128) + p). -/
theorem in_emb_eq (t : Fin cfg1.N) (r : Fin 8) (p : Fin 2048)
    (h1 : 8 * (t.val / 128) + r.val < 48) (h2 : 2048 * (t.val % 128) + p.val < 262144) :
    ((cfg1.win 0).blk t).view.emb (ix2 r p)
      = (ix2 (⟨8 * (t.val / 128) + r.val, h1⟩ : Fin 48) (⟨2048 * (t.val % 128) + p.val, h2⟩ : Fin 262144) : S48x262144.Idx) := by
  obtain ⟨e0, e1⟩ := in_idx_facts t
  funext a
  apply Fin.ext
  match a with
  | ⟨0, _⟩ =>
    show win1_0.index t (0 : Fin 2) * 8 + 1 * r.val = 8 * (t.val / 128) + r.val
    rw [e0]; omega
  | ⟨1, _⟩ =>
    show win1_0.index t (1 : Fin 2) * 2048 + 1 * p.val = 2048 * (t.val % 128) + p.val
    rw [e1]; omega

/-- So point `t`'s block of an array `G`, read at (r, p), is `G` at (8·(t / 128) + r, 2048·(t % 128) + p). -/
theorem in_read_blk (t : Fin cfg1.N) (G : S48x262144.Idx → Elt F .f32) (r : Fin 8) (p : Fin 2048)
    (h1 : 8 * (t.val / 128) + r.val < 48) (h2 : 2048 * (t.val % 128) + p.val < 262144) :
    ((cfg1.win 0).blk t).view.read (Elt F) G (ix2 r p)
      = G (ix2 (⟨8 * (t.val / 128) + r.val, h1⟩ : Fin 48) (⟨2048 * (t.val % 128) + p.val, h2⟩ : Fin 262144)) := by
  rw [View.read_apply, in_emb_eq t r p h1 h2]
  rfl

/-- The input block at point `t`, entry (r, p): the array the region read at plane 8·(t / 128) + r,
    pixel 2048·(t % 128) + p. -/
theorem iblk1_apply (c : Dev nD) (t : Fin cfg1.N) (r : Fin 8) (p : Fin 2048) (h1 : 8 * (t.val / 128) + r.val < 48) (h2 : 2048 * (t.val % 128) + p.val < 262144) : (iblk1 V c 0 t : Vec F S8x2048 .f32) (ix2 r p) = (V c main_v5 : S48x262144.Idx → Elt F .f32) (ix2 (⟨8 * (t.val / 128) + r.val, h1⟩ : Fin 48) (⟨2048 * (t.val % 128) + p.val, h2⟩ : Fin 262144)) := by
  unfold iblk1
  exact in_read_blk t _ r p h1 h2

end Cert.KernelIdeal.Val1

end
-- ==== Proof.KI.Value1.lean ====
/-
  Second pallas_call at the extended reals: the accumulator after every grid point, in closed form.

  Point t works on plane group t / 128 and pixel tile t % 128; row r of its tile is plane 8·(t / 128) + r and its
  2048 pixels are the plane's pixels 2048·(t % 128) … 2048·(t % 128) + 2047.  After the point the accumulator's entry
  (r, b) counts the pixels of that plane among the first 2048·(t % 128 + 1) that fall in bin b: zero plus the first
  tile's hits at a group's first tile, the count so far plus this tile's hits afterwards.  At a group's last tile the
  output block is a copy of the accumulator: the plane's whole histogram row.
-/
import proofs.«181613_j80625126080915_1_alg».proof.Proof.KI.Region1
import proofs.«181613_j80625126080915_1_alg».proof.Proof.PayIdeal
import proofs.«181613_j80625126080915_1_alg».proof.Proof.SpecLaws
import proofs.«181613_j80625126080915_1_alg».proof.Proof.KI.Tile1
import Idealize.ShloMosaic.Lib.ValueIdx
import Idealize.ShloMosaic.Lib.Pipeline.Value

set_option maxRecDepth 16384

noncomputable section

namespace Cert.KernelIdeal.Val1

open Cert.KernelIdeal Cert.KernelIdeal.Gen Cert.KernelIdeal.Frm Cert.Spec
open Idealize.ShloMosaic Idealize.ShloMosaic.TcCoe Idealize.ShloMosaic.ValueIdx
open Idealize.ShloMosaic.Pipeline (Dat)
open Idealize.ShloMosaic.Tactic

variable (V : (c : Dev nD) → (b : Ref sig .tc) → Buf (Elt Ideal) ((c : Thread nD τ).loc b))

/-! ## The accumulator's two halves

The accumulator is 8 rows of 256 bins; the body stores its low 128 columns and its high 128 columns separately. -/

section Halves

variable {Val : EltTy → Type} [∀ e, Nonempty (Val e)]

/-- Columns 0 … 127. -/
abbrev rLo : Rect S8x256 := Rect.unit (s := S8x256) ![0, 0] S8x128.size inb_S8x256_S8x128_0_0
/-- Columns 128 … 255. -/
abbrev rHi : Rect S8x256 := Rect.unit (s := S8x256) ![0, 128] S8x128.size inb_S8x256_S8x128_0_128
/-- All 256 columns. -/
abbrev rAll : Rect S8x256 := Rect.unit (s := S8x256) ![0, 0] S8x256.size inb_S8x256_S8x256_0_0

theorem zeros2 : (![0, 0] : Fin 2 → ℕ) = fun _ => 0 := by
  funext a
  match a with
  | ⟨0, _⟩ => rfl
  | ⟨1, _⟩ => rfl

/-- Entry (r, b') of the low half is entry (r, b') of the accumulator. -/
theorem rLo_idx (r : Fin 8) (b' : Fin 128) (b : Fin 256) (hb : b.val = b'.val) : rLo.idx (ix2 r b') = ix2 r b := by
  funext a
  apply Fin.ext
  match a with
  | ⟨0, _⟩ => show 0 + 1 * r.val = r.val; omega
  | ⟨1, _⟩ => show 0 + 1 * b'.val = b.val; omega

/-- Entry (r, b') of the high half is entry (r, b' + 128) of the accumulator. -/
theorem rHi_idx (r : Fin 8) (b' : Fin 128) (b : Fin 256) (hb : b.val = b'.val + 128) : rHi.idx (ix2 r b') = ix2 r b := by
  funext a
  apply Fin.ext
  match a with
  | ⟨0, _⟩ => show 0 + 1 * r.val = r.val; omega
  | ⟨1, _⟩ => show 128 + 1 * b'.val = b.val; omega

/-- An entry of the low columns is not in the high half. -/
theorem not_mem_rHi (r : Fin 8) (b : Fin 256) (h : b.val < 128) : ix2 r b ∉ rHi.set := by
  intro hm
  have h1 := Rect.mem_set_unit.mp hm (⟨1, Nat.one_lt_two⟩ : Fin 2)
  have h2 : 128 ≤ b.val := h1.1
  omega

/-- An entry of the high columns is not in the low half. -/
theorem not_mem_rLo (r : Fin 8) (b : Fin 256) (h : 128 ≤ b.val) : ix2 r b ∉ rLo.set := by
  intro hm
  have h1 := Rect.mem_set_unit.mp hm (⟨1, Nat.one_lt_two⟩ : Fin 2)
  have h2 : b.val < 0 + 128 := h1.2
  omega

/-- After a store of the low half and then one of the high half, an entry of the low columns holds the low store's
    value … -/
theorem canon_halves_lo (wHi wLo : S8x128.Idx → Val .f32) (L : List (View.Piece Val S8x256 .f32)) (r : Fin 8)
    (b' : Fin 128) (b : Fin 256) (hb : b.val = b'.val) :
    View.canon ((⟨rHi, wHi⟩ : View.Piece Val S8x256 .f32) :: ⟨rLo, wLo⟩ :: L) (ix2 r b) = wLo (ix2 r b') := by
  refine (View.canon_cons_of_not_mem (⟨rHi, wHi⟩ : View.Piece Val S8x256 .f32) (⟨rLo, wLo⟩ :: L)
    (not_mem_rHi r b (by omega))).trans ?_
  rw [← rLo_idx r b' b hb]
  exact View.canon_cons_emb rLo wLo L (ix2 r b')

/-- … and an entry of the high columns holds the high store's value. -/
theorem canon_halves_hi (wHi wLo : S8x128.Idx → Val .f32) (L : List (View.Piece Val S8x256 .f32)) (r : Fin 8)
    (b' : Fin 128) (b : Fin 256) (hb : b.val = b'.val + 128) :
    View.canon ((⟨rHi, wHi⟩ : View.Piece Val S8x256 .f32) :: ⟨rLo, wLo⟩ :: L) (ix2 r b) = wHi (ix2 r b') := by
  rw [← rHi_idx r b' b hb]
  exact View.canon_cons_emb rHi wHi (⟨rLo, wLo⟩ :: L) (ix2 r b')

/-- The two halves' stores leave no entry of the accumulator unwritten. -/
theorem cover_halves (wHi wLo : S8x128.Idx → Val .f32) (y : S8x256.Idx) :
    ∃ p ∈ [(⟨rHi, wHi⟩ : View.Piece Val S8x256 .f32), ⟨rLo, wLo⟩], y ∈ p.1.set := by
  obtain ⟨r, b, rfl⟩ : ∃ (r : Fin 8) (b : Fin 256), y = ix2 r b := ⟨y 0, y 1, eq_ix2 y⟩
  by_cases h : b.val < 128
  · refine ⟨⟨rLo, wLo⟩, List.mem_cons_of_mem _ (List.mem_singleton_self _), ?_⟩
    rw [← rLo_idx r ⟨b.val, h⟩ b rfl]
    exact rLo.idx_mem _
  · refine ⟨⟨rHi, wHi⟩, List.mem_cons_self, ?_⟩
    rw [← rHi_idx r ⟨b.val - 128, by omega⟩ b (by show b.val = b.val - 128 + 128; omega)]
    exact rHi.idx_mem _

/-- A load, through any rectangle, of what one store of all columns left reads the stored value there. -/
theorem readCov_all {sig : RefSig} {κ : Kind} {sp : Space} (v : View sig κ sp S8x256 .f32) (w : S8x256.Idx → Val .f32)
    (B : Rect S8x256) :
    v.readCov [(⟨rAll, w⟩ : View.Piece Val S8x256 .f32)] B.toLoadRect = View.ld w B := by
  rw [View.readCov_eq_canon_ld v [(⟨rAll, w⟩ : View.Piece Val S8x256 .f32)] B
    (fun y => ⟨⟨rAll, w⟩, List.mem_singleton_self _, View.mem_set_unit_zero zeros2 inb_S8x256_S8x256_0_0 y⟩)]
  rw [View.canon_unit_zero zeros2 inb_S8x256_S8x256_0_0 w]

/-- A load of the high half after a store of all columns and then one of the low half still reads the first store. -/
theorem readCov_lo_all_hi {sig : RefSig} {κ : Kind} {sp : Space} (v : View sig κ sp S8x256 .f32)
    (wLo : S8x128.Idx → Val .f32) (w : S8x256.Idx → Val .f32) :
    v.readCov [(⟨rLo, wLo⟩ : View.Piece Val S8x256 .f32), ⟨rAll, w⟩] rHi.toLoadRect = View.ld w rHi := by
  rw [View.readCov_eq_canon_ld v [(⟨rLo, wLo⟩ : View.Piece Val S8x256 .f32), ⟨rAll, w⟩] rHi
    (fun y => ⟨⟨rAll, w⟩, List.mem_cons_of_mem _ (List.mem_singleton_self _), View.mem_set_unit_zero zeros2 inb_S8x256_S8x256_0_0 y⟩)]
  funext x
  obtain ⟨r, b, rfl⟩ : ∃ (r : Fin 8) (b : Fin 128), x = ix2 r b := ⟨x 0, x 1, eq_ix2 x⟩
  show View.canon [(⟨rLo, wLo⟩ : View.Piece Val S8x256 .f32), ⟨rAll, w⟩] (rHi.idx (ix2 r b)) = w (rHi.idx (ix2 r b))
  rw [rHi_idx r b ⟨b.val + 128, by omega⟩ rfl]
  refine (View.canon_cons_of_not_mem (⟨rLo, wLo⟩ : View.Piece Val S8x256 .f32) [⟨rAll, w⟩]
    (not_mem_rLo r ⟨b.val + 128, by omega⟩ (by show 128 ≤ b.val + 128; omega))).trans ?_
  rw [View.canon_unit_zero zeros2 inb_S8x256_S8x256_0_0 w]

/-- A load of all columns after the two halves' stores reads what they left. -/
theorem readCov_halves_all {sig : RefSig} {κ : Kind} {sp : Space} (v : View sig κ sp S8x256 .f32)
    (wHi wLo : S8x128.Idx → Val .f32) :
    v.readCov [(⟨rHi, wHi⟩ : View.Piece Val S8x256 .f32), ⟨rLo, wLo⟩] rAll.toLoadRect
      = View.canon [(⟨rHi, wHi⟩ : View.Piece Val S8x256 .f32), ⟨rLo, wLo⟩] := by
  rw [View.readCov_eq_canon_ld v [(⟨rHi, wHi⟩ : View.Piece Val S8x256 .f32), ⟨rLo, wLo⟩] rAll (cover_halves wHi wLo)]
  exact View.ld_unit_zero zeros2 inb_S8x256_S8x256_0_0 _

end Halves

/-! ## What each case leaves, as the two halves' stores -/

section Pieces

variable {F : FTy → Type} [FloatOps F]

/-- A later tile: each half of the accumulator is replaced by the body's update of what that half held. -/
theorem accB_eq (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : ¬cond1_1 i) (x0 : Vec F S8x2048 .f32) (xs0 : Vec F S8x256 .f32) :
    sout1_B_0 c i arg2 harg2 arg3 harg3 arg4 harg4 hc0 hc1 x0 xs0
      = View.canon [(⟨rHi, k1_pay1 (k1_pay5 x0 (View.ld (Val := Elt F) xs0 rHi))⟩ : View.Piece (Elt F) S8x256 .f32),
          ⟨rLo, k1_pay4 x0 (View.ld (Val := Elt F) xs0 rLo)⟩] := by
  unfold sout1_B_0
  rw [View.read_writes_eq_canon _ _ _ (scover1_B_0 c i arg2 harg2 arg3 harg3 arg4 harg4 hc0 hc1 x0 xs0)]
  unfold kernelRun1_B
  dsimp only
  sl_unfold_words
  simp only [View.readAt_eq_ld, harg2.read_unread, harg4.read_unread, View.ld_unit_zero (S := S8x2048) zeros2]

/-- A group's last tile: the accumulator as at any later tile. -/
theorem accC_eq (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i) (x0 : Vec F S8x2048 .f32) (xs0 : Vec F S8x256 .f32) :
    sout1_C_0 c i arg2 harg2 arg3 harg3 arg4 harg4 hc0 hc1 x0 xs0
      = View.canon [(⟨rHi, k1_pay1 (k1_pay5 x0 (View.ld (Val := Elt F) xs0 rHi))⟩ : View.Piece (Elt F) S8x256 .f32),
          ⟨rLo, k1_pay4 x0 (View.ld (Val := Elt F) xs0 rLo)⟩] := by
  unfold sout1_C_0
  rw [View.read_writes_eq_canon _ _ _ (scover1_C_0 c i arg2 harg2 arg3 harg3 arg4 harg4 hc0 hc1 x0 xs0)]
  unfold kernelRun1_C
  dsimp only
  sl_unfold_words
  simp only [View.readAt_eq_ld, harg2.read_unread, harg4.read_unread, View.ld_unit_zero (S := S8x2048) zeros2]

/-- A group's last tile: the output block is a copy of the accumulator after the two stores. -/
theorem outC_eq (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : ¬cond1_0 i) (hc1 : cond1_1 i) (x0 : Vec F S8x2048 .f32) (xs0 : Vec F S8x256 .f32) :
    out1_C_1 c i arg2 harg2 arg3 harg3 arg4 harg4 hc0 hc1 x0 xs0
      = View.canon [(⟨rHi, k1_pay1 (k1_pay5 x0 (View.ld (Val := Elt F) xs0 rHi))⟩ : View.Piece (Elt F) S8x256 .f32),
          ⟨rLo, k1_pay4 x0 (View.ld (Val := Elt F) xs0 rLo)⟩] := by
  unfold out1_C_1
  rw [View.read_writes_eq_canon _ _ _ (cover1_C_1 c i arg2 harg2 arg3 harg3 arg4 harg4 hc0 hc1 x0 xs0)]
  unfold kernelRun1_C
  dsimp only
  sl_unfold_words
  simp only [View.readAt_eq_ld, harg2.read_unread, harg4.read_unread, View.ld_unit_zero (S := S8x2048) zeros2]
  rw [readCov_halves_all (Val := Elt F) arg4.view (k1_pay1 (k1_pay5 x0 (View.ld (Val := Elt F) xs0 rHi)))
    (k1_pay4 x0 (View.ld (Val := Elt F) xs0 rLo))]
  exact View.canon_unit_zero (S := S8x256) zeros2 inb_S8x256_S8x256_0_0 _

/-- A group's first tile: the same two stores over the reset value, which the body stored first. -/
theorem accA_eq (c : Dev nD) (i : grid1.Coords) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (hc0 : cond1_0 i) (hc1 : ¬cond1_1 i) (x0 : Vec F S8x2048 .f32) :
    sout1_A_0 c i arg2 harg2 arg3 harg3 arg4 harg4 hc0 hc1 x0
      = View.canon [(⟨rHi, k1_pay1 (k1_pay5 x0 (View.ld (Val := Elt F) (k1_pay2 (F := F)) rHi))⟩ : View.Piece (Elt F) S8x256 .f32),
          ⟨rLo, k1_pay4 x0 (View.ld (Val := Elt F) (k1_pay2 (F := F)) rLo)⟩, ⟨rAll, k1_pay2 (F := F)⟩] := by
  unfold sout1_A_0
  rw [View.read_writes_eq_canon _ _ _ (scover1_A_0 c i arg2 harg2 arg3 harg3 arg4 harg4 hc0 hc1 x0)]
  unfold kernelRun1_A
  dsimp only
  sl_unfold_words
  simp only [View.readAt_eq_ld, harg2.read_unread, View.ld_unit_zero (S := S8x2048) zeros2]
  rw [readCov_all (Val := Elt F) arg4.view (k1_pay2 (F := F)) rLo]
  rw [readCov_lo_all_hi (Val := Elt F) arg4.view (k1_pay4 x0 (View.ld (Val := Elt F) (k1_pay2 (F := F)) rLo)) (k1_pay2 (F := F))]

end Pieces

/-! ## The update at the extended reals -/

section AtIndex

open Cert.KernelIdeal.PayIdeal

/-- The two stores over previous contents X: entry (r, b) gains the number of the tile's pixels of row r in bin b. -/
theorem upd_apply (x0 : Vec Ideal S8x2048 .f32) (X : Vec Ideal S8x256 .f32)
    (L : List (View.Piece (Elt Ideal) S8x256 .f32)) (r : Fin 8) (b : Fin 256) :
    View.canon ((⟨rHi, k1_pay1 (F := Ideal) (k1_pay5 (F := Ideal) x0 (View.ld (Val := Elt Ideal) X rHi))⟩ :
        View.Piece (Elt Ideal) S8x256 .f32) :: ⟨rLo, k1_pay4 (F := Ideal) x0 (View.ld (Val := Elt Ideal) X rLo)⟩ :: L) (ix2 r b)
      = X (ix2 r b) + ∑ p : Fin 2048, hit (x0 (ix2 r p)) b.val := by
  by_cases h : b.val < 128
  · refine (canon_halves_lo (Val := Elt Ideal) (k1_pay1 (F := Ideal) (k1_pay5 (F := Ideal) x0 (View.ld (Val := Elt Ideal) X rHi)))
      (k1_pay4 (F := Ideal) x0 (View.ld (Val := Elt Ideal) X rLo)) L r ⟨b.val, h⟩ b rfl).trans ?_
    refine (pay4_apply' x0 (View.ld (Val := Elt Ideal) X rLo) r ⟨b.val, h⟩).trans ?_
    show X (rLo.idx (ix2 r (⟨b.val, h⟩ : Fin 128))) + ∑ p : Fin 2048, hit (x0 (ix2 r p)) b.val = _
    rw [rLo_idx r ⟨b.val, h⟩ b rfl]
  · have h' : 128 ≤ b.val := Nat.le_of_not_lt h
    have hb : b.val - 128 < 128 := by omega
    have e : b.val = b.val - 128 + 128 := by omega
    refine (canon_halves_hi (Val := Elt Ideal) (k1_pay1 (F := Ideal) (k1_pay5 (F := Ideal) x0 (View.ld (Val := Elt Ideal) X rHi)))
      (k1_pay4 (F := Ideal) x0 (View.ld (Val := Elt Ideal) X rLo)) L r ⟨b.val - 128, hb⟩ b e).trans ?_
    refine (pay15_apply' x0 (View.ld (Val := Elt Ideal) X rHi) r ⟨b.val - 128, hb⟩).trans ?_
    show X (rHi.idx (ix2 r (⟨b.val - 128, hb⟩ : Fin 128))) + ∑ p : Fin 2048, hit (x0 (ix2 r p)) (b.val - 128 + 128) = _
    rw [rHi_idx r ⟨b.val - 128, hb⟩ b e, ← e]

/-- One tile's step of the count: what was counted before the tile plus the tile's hits is what is counted after it. -/
theorem step_count (X : FVec Ideal SX .f32) (pl : Fin 48) (k : ℕ) (T : ℕ) (hT : T < 128) (x : Vec Ideal S8x2048 .f32)
    (r : Fin 8) (hx : ∀ p : Fin 2048, x (ix2 r p) = X (ix2 pl (⟨2048 * T + p.val, by omega⟩ : Fin 262144)))
    (a : EReal) (ha : a = countUpTo X pl k (2048 * T)) :
    a + ∑ p : Fin 2048, hit (x (ix2 r p)) k = countUpTo X pl k (2048 * (T + 1)) := by
  rw [countUpTo_tile X pl k T (by omega), ha]
  refine congrArg (fun s => countUpTo X pl k (2048 * T) + s) ?_
  refine Finset.sum_congr rfl (fun p _ => ?_)
  rw [hx p]

end AtIndex

/-- The plane that row `r` of point `t`'s tile belongs to. -/
def planeOf1 (t : Fin cfg1.N) (r : Fin 8) : Fin 48 :=
  ⟨8 * (t.val / 128) + r.val, by have h : t.val < 768 := lt_of_lt_of_eq t.isLt N_1; have := r.isLt; omega⟩

/-! ## The count after every point -/

/-- Point t's input tile: 8 rows of 2048 pixels. -/
abbrev xblk (c : Dev nD) (t : Fin cfg1.N) : Vec Ideal S8x2048 .f32 := iblk1 V c 0 t
/-- The 48 planes as the region finds them. -/
abbrev xarr (c : Dev nD) : FVec Ideal SX .f32 := V c main_v5

/-- Row r of point t's tile is pixels 2048·(t % 128) … of the row's plane. -/
theorem xblk_apply (c : Dev nD) (t : Fin cfg1.N) (r : Fin 8) (p : Fin 2048) :
    xblk V c t (ix2 r p)
      = xarr V c (ix2 (planeOf1 t r) (⟨2048 * (t.val % 128) + p.val, by omega⟩ : Fin 262144)) :=
  iblk1_apply V c t r p (planeOf1 t r).isLt (by omega)

/-- The accumulator after the point at position n, by induction on n: a group's first tile counts from zero, every
    later tile from what the tile before left, which is the count for the same plane one tile earlier. -/
theorem acc_closed_aux (c : Dev nD) : ∀ (n : ℕ) (t : Fin cfg1.N), t.val = n → ∀ (r : Fin 8) (b : Fin 256),
    (outsAt1 (F := Ideal) V c t.val t.isLt).2 (ix2 r b)
      = countUpTo (xarr V c) (planeOf1 t r) b.val (2048 * (t.val % 128 + 1)) := by
  intro n
  induction n using Nat.strong_induction_on with
  | _ n ih =>
    intro t ht r b
    subst ht
    have hT : t.val % 128 < 128 := Nat.mod_lt _ (by norm_num)
    by_cases h0 : t.val % 128 = 0
    · have h1 : ¬t.val % 128 = 127 := by omega
      rw [outsAt1_A V c t h0 h1]
      dsimp only
      refine (congrFun (accA_eq (F := Ideal) c (grid1.coords t) (ms1_0 t) (hs1_0 t) (ms1_1 t) (hs1_1 t) scM1_0
        (Memref.isWhole_whole _) ((hcond1_0 t).mpr h0) (fun h => h1 ((hcond1_1 t).mp h)) (xblk V c t)) (ix2 r b)).trans ?_
      refine (upd_apply (xblk V c t) (k1_pay2 (F := Ideal)) [⟨rAll, k1_pay2 (F := Ideal)⟩] r b).trans ?_
      refine step_count (xarr V c) (planeOf1 t r) b.val (t.val % 128) hT (xblk V c t) r
        (fun p => xblk_apply V c t r p) (k1_pay2 (F := Ideal) (ix2 r b)) ?_
      rw [Cert.KernelIdeal.PayIdeal.pay2_apply' r b, h0, Nat.mul_zero, countUpTo_zero]
    · have hpos : 0 < t.val := by omega
      have hlt' : t.val - 1 < cfg1.N := Nat.lt_of_le_of_lt (Nat.sub_le _ _) t.isLt
      have iht := ih (t.val - 1) (by omega) ⟨t.val - 1, hlt'⟩ rfl r b
      have hpl : planeOf1 ⟨t.val - 1, hlt'⟩ r = planeOf1 t r :=
        Fin.ext (by show 8 * ((t.val - 1) / 128) + r.val = 8 * (t.val / 128) + r.val; omega)
      have hmod : (t.val - 1) % 128 + 1 = t.val % 128 := by omega
      have hprev : (outsAt1 (F := Ideal) V c (t.val - 1) hlt').2 (ix2 r b)
          = countUpTo (xarr V c) (planeOf1 t r) b.val (2048 * (t.val % 128)) := by
        rw [← hpl, ← hmod]
        exact iht
      by_cases h1 : t.val % 128 = 127
      · rw [outsAt1_C V c t h0 h1]
        dsimp only
        refine (congrFun (accC_eq (F := Ideal) c (grid1.coords t) (ms1_0 t) (hs1_0 t) (ms1_1 t) (hs1_1 t) scM1_0
          (Memref.isWhole_whole _) (fun h => h0 ((hcond1_0 t).mp h)) ((hcond1_1 t).mpr h1) (xblk V c t)
          (outsAt1 (F := Ideal) V c (t.val - 1) hlt').2) (ix2 r b)).trans ?_
        refine (upd_apply (xblk V c t) (outsAt1 (F := Ideal) V c (t.val - 1) hlt').2 [] r b).trans ?_
        exact step_count (xarr V c) (planeOf1 t r) b.val (t.val % 128) hT (xblk V c t) r
          (fun p => xblk_apply V c t r p) ((outsAt1 (F := Ideal) V c (t.val - 1) hlt').2 (ix2 r b)) hprev
      · rw [outsAt1_B V c t h0 h1]
        dsimp only
        refine (congrFun (accB_eq (F := Ideal) c (grid1.coords t) (ms1_0 t) (hs1_0 t) (ms1_1 t) (hs1_1 t) scM1_0
          (Memref.isWhole_whole _) (fun h => h0 ((hcond1_0 t).mp h)) (fun h => h1 ((hcond1_1 t).mp h)) (xblk V c t)
          (outsAt1 (F := Ideal) V c (t.val - 1) hlt').2) (ix2 r b)).trans ?_
        refine (upd_apply (xblk V c t) (outsAt1 (F := Ideal) V c (t.val - 1) hlt').2 [] r b).trans ?_
        exact step_count (xarr V c) (planeOf1 t r) b.val (t.val % 128) hT (xblk V c t) r
          (fun p => xblk_apply V c t r p) ((outsAt1 (F := Ideal) V c (t.val - 1) hlt').2 (ix2 r b)) hprev

/-- The accumulator after point `t`: the counts over the tiles of the plane group seen so far. -/
theorem acc_closed1 (c : Dev nD) (t : Fin cfg1.N) (r : Fin 8) (b : Fin 256) :
    (outsAt1 (F := Ideal) V c t.val t.isLt).2 (ix2 r b)
      = countUpTo (V c main_v5) (planeOf1 t r) b.val (2048 * (t.val % 128 + 1)) := by
  exact acc_closed_aux V c t.val t rfl r b

/-- The output block at a group's last tile: the histogram rows of the group's planes. -/
theorem out_closed1 (c : Dev nD) (t : Fin cfg1.N) (h : t.val % 128 = 127) (r : Fin 8) (b : Fin 256) :
    (outsAt1 (F := Ideal) V c t.val t.isLt).1 (ix2 r b) = hist (V c main_v5) (ix2 (planeOf1 t r) b) := by
  have h0 : ¬t.val % 128 = 0 := by omega
  have hlt' : t.val - 1 < cfg1.N := Nat.lt_of_le_of_lt (Nat.sub_le _ _) t.isLt
  have key : (outsAt1 (F := Ideal) V c t.val t.isLt).1 = (outsAt1 (F := Ideal) V c t.val t.isLt).2 := by
    rw [outsAt1_C V c t h0 h]
    dsimp only
    exact (outC_eq (F := Ideal) c (grid1.coords t) (ms1_0 t) (hs1_0 t) (ms1_1 t) (hs1_1 t) scM1_0
        (Memref.isWhole_whole _) (fun h' => h0 ((hcond1_0 t).mp h')) ((hcond1_1 t).mpr h) (xblk V c t)
        (outsAt1 (F := Ideal) V c (t.val - 1) hlt').2).trans
      (accC_eq (F := Ideal) c (grid1.coords t) (ms1_0 t) (hs1_0 t) (ms1_1 t) (hs1_1 t) scM1_0
        (Memref.isWhole_whole _) (fun h' => h0 ((hcond1_0 t).mp h')) ((hcond1_1 t).mpr h) (xblk V c t)
        (outsAt1 (F := Ideal) V c (t.val - 1) hlt').2).symm
  rw [key, acc_closed1 V c t r b, h]
  exact countUpTo_full (V c main_v5) (planeOf1 t r) b

end Cert.KernelIdeal.Val1

end
-- ==== Proof.KI.Cover1.lean ====
/-
  Second pallas_call at the extended reals: the output array after the run is the histogram of the input array.

  The output window is written back at the last tile of each of the six plane groups; block g holds rows
  8g … 8g + 7 of the histogram (Value1), the six blocks tile the 48 × 256 array, so the array ends as the histogram.
-/
import proofs.«181613_j80625126080915_1_alg».proof.Proof.KI.Value1
import Idealize.ShloMosaic.Lib.ValueIdx
import Idealize.ShloMosaic.Lib.Pipeline.Value

set_option maxRecDepth 16384

noncomputable section

namespace Cert.KernelIdeal.Val1

open Cert.KernelIdeal Cert.KernelIdeal.Gen Cert.KernelIdeal.Frm Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Window 1's block index at point `t`: plane group `t / 128` on the rows, `0` on the bins. -/
theorem idx_facts : ∀ t : Fin cfg1.N, win1_1.index t (0 : Fin 2) = t.val / 128 ∧ win1_1.index t (1 : Fin 2) = 0 :=
  (by decide +kernel : ∀ t : Fin grid1.N, _)

/-- The write-back moves the whole block: the part of a block's contents it writes is the contents. -/
theorem cut_eq {α : Type} (t : Fin cfg1.N) (X : S8x256.Idx → α) (y : S8x256.Idx) :
    (cfg1.win 1).cut (grid1.coords t) X y = X y :=
  congrArg X (funext fun a => Fin.ext rfl)

/-- Entry (r, b) of point `t`'s block is the array's entry (8·(t / 128) + r, b): a block's coordinate is the block
    index times the block's size plus the coordinate inside the block. -/
theorem emb_eq (t : Fin cfg1.N) (r : Fin 8) (b : Fin 256) :
    ((cfg1.win 1).blk t).view.emb (ix2 r b) = (ix2 (planeOf1 t r) b : S48x256.Idx) := by
  obtain ⟨e0, e1⟩ := idx_facts t
  funext a
  apply Fin.ext
  match a with
  | ⟨0, _⟩ =>
    show win1_1.index t (0 : Fin 2) * 8 + 1 * r.val = 8 * (t.val / 128) + r.val
    rw [e0]; omega
  | ⟨1, _⟩ =>
    show win1_1.index t (1 : Fin 2) * 256 + 1 * b.val = b.val
    rw [e1]; omega

/-- So point `t`'s block of an array `G`, read at (r, b), is `G` at (8·(t / 128) + r, b). -/
theorem read_blk (t : Fin cfg1.N) (G : FVec Ideal S48x256 .f32) (r : Fin 8) (b : Fin 256) :
    ((cfg1.win 1).blk t).view.read (Elt Ideal) G (ix2 r b) = G (ix2 (planeOf1 t r) b) := by
  rw [View.read_apply, emb_eq t r b]
  rfl

/-- What a group's last tile writes back is its block of the histogram: entry (r, b) of the block is the histogram
    row of plane 8·(t / 128) + r at bin b. -/
theorem flushed_eq (c : Dev nD) (t : Fin cfg1.N) (hf : (cfg1.win 1).flush t = true) :
    (dat1 (F := Ideal) V c).flushed 1 t
      = ((cfg1.win 1).blk t).view.read (Elt Ideal) (hist (V c main_v5) : FVec Ideal SH .f32) := by
  show (cfg1.win 1).cut (grid1.coords t) ((dat1 (F := Ideal) V c).after 1 t) = _
  rw [after1_1]
  funext y
  obtain ⟨r, b, rfl⟩ : ∃ (r : Fin 8) (b : Fin 256), y = ix2 r b := ⟨y 0, y 1, eq_ix2 y⟩
  refine (cut_eq t _ (ix2 r b)).trans ?_
  refine (out_closed1 V c t ((flush1_1 t).mp hf) r b).trans ?_
  exact (read_blk t _ r b).symm

/-- An index of the array is in point `t`'s block iff each coordinate is in the block's range on its axis. -/
theorem mem_blk (t : Fin cfg1.N) (i : S48x256.Idx) :
    i ∈ ((cfg1.win 1).blk t).view.set
      ↔ ∀ a : Fin 2, win1_1.index t a * S8x256.size a ≤ (i a).val ∧ (i a).val < win1_1.index t a * S8x256.size a + S8x256.size a := by
  show i ∈ ((View.whole main_v6).slice (win1_1.rect t)).set ↔ _
  rw [View.set_slice_whole, Rect.mem_set_unit]
  exact Iff.rfl

/-- Every entry (q, b) of the array is in the block written back at the last tile of q's plane group, the point
    128·(q / 8) + 127. -/
theorem cover (i : S48x256.Idx) :
    ∃ t : Fin cfg1.N, (cfg1.win 1).flush t = true ∧ i ∈ ((cfg1.win 1).blk t).view.set := by
  have hi0 : (i 0).val < 48 := (i 0).isLt
  have hi1 : (i 1).val < 256 := (i 1).isLt
  have hN : cfg1.N = 768 := N_1
  let t : Fin cfg1.N := ⟨128 * ((i 0).val / 8) + 127, by rw [hN]; omega⟩
  have ht : t.val = 128 * ((i 0).val / 8) + 127 := rfl
  obtain ⟨e0, e1⟩ := idx_facts t
  refine ⟨t, (flush1_1 t).mpr (by rw [ht]; omega), ?_⟩
  rw [mem_blk]
  intro a
  match a with
  | ⟨0, _⟩ =>
    show win1_1.index t (0 : Fin 2) * 8 ≤ (i 0).val ∧ (i 0).val < win1_1.index t (0 : Fin 2) * 8 + 8
    rw [e0, ht]; omega
  | ⟨1, _⟩ =>
    show win1_1.index t (1 : Fin 2) * 256 ≤ (i 1).val ∧ (i 1).val < win1_1.index t (1 : Fin 2) * 256 + 256
    rw [e1]; omega

/-- After the region the output array holds the histogram of the array the region read. -/
theorem arrAt1_1 (c : Dev nD) :
    (dat1 (F := Ideal) V c).arrAt 1 cfg1.N = (hist (V c main_v5) : FVec Ideal SH .f32) :=
  (dat1 (F := Ideal) V c).arrAt_eq_of_cover 1 (hist (V c main_v5) : FVec Ideal SH .f32)
    (fun t hf => flushed_eq V c t hf) (fun i => cover i)

end Cert.KernelIdeal.Val1

end
-- ==== Proof.HostOps.lean ====
/-
  The host operations around the two pallas_calls, read as functions of the buffers they start from.
-/
import proofs.«181613_j80625126080915_1_alg».proof.Proof.Gen.KernelIdeal.Launch
import proofs.«181613_j80625126080915_1_alg».proof.Proof.Spec
import Idealize.ShloMosaic.Lib.StableHlo.Run

noncomputable section

namespace Cert.KernelIdeal.Tail

open Cert.KernelIdeal Cert.KernelIdeal.Gen
open Idealize.ShloMosaic Idealize.ShloMosaic.TcCoe Idealize.ShloMosaic.StableHlo Idealize.SL.Sem

variable {F : FTy → Type} [FloatOps F]

/-- The 16 × 3 × 512 × 512 argument flattens to 48 planes of 262144 pixels. -/
theorem castsX : S16x3x512x512.ShapeCasts Cert.Spec.SX := Facts₀.shapeCasts_S16x3x512x512_S48x262144

/-- The first host stretch flattens the first argument. -/
theorem after0_v0 (W : Valuation τ sig (Elt F)) :
    StableHlo.after (hostOps0 (F := F)) W (Proc.devRef .tc main_v0)
      = shapeCast S48x262144 (W (Proc.devRef .tc main_arg0)) Facts₀.shapeCasts_S16x3x512x512_S48x262144 := by
  after_results; rfl

/-- The first host stretch leaves the second argument as it was. -/
theorem after0_arg1 (W : Valuation τ sig (Elt F)) :
    StableHlo.after (hostOps0 (F := F)) W (Proc.devRef .tc main_arg1) = W (Proc.devRef .tc main_arg1) := by
  after_results

/-- The second host stretch flattens the second argument, -/
theorem after1_v5 (W : Valuation τ sig (Elt F)) :
    StableHlo.after (hostOps1 (F := F)) W (Proc.devRef .tc main_v5)
      = shapeCast S48x262144 (W (Proc.devRef .tc main_arg1)) Facts₀.shapeCasts_S16x3x512x512_S48x262144 := by
  after_results; rfl

/-- and normalises the first histogram. -/
theorem after1_v4 (W : Valuation τ sig (Elt F)) :
    StableHlo.after (hostOps1 (F := F)) W (Proc.devRef .tc main_v4)
      = Host.divf (shapeCast S16x3x256 (W (Proc.devRef .tc main_v1)) Facts₀.shapeCasts_S48x256_S16x3x256)
          (broadcastInDim S16x3x256 ![] Facts₀.bcast_S_S16x3x256 (constant (F := F) S_ .f32 0x48800000#32)) := by
  after_results; rfl

/-- The last host stretch normalises the second histogram and takes the mean absolute difference. -/
theorem after2_v13 (W : Valuation τ sig (Elt F)) :
    StableHlo.after (hostOps2 (F := F)) W (Proc.devRef .tc main_v13)
      = Host.divf
          (Host.reduceAdd (Host.absf (subf (W (Proc.devRef .tc main_v4))
            (Host.divf (shapeCast S16x3x256 (W (Proc.devRef .tc main_v6)) Facts₀.shapeCasts_S48x256_S16x3x256)
              (broadcastInDim S16x3x256 ![] Facts₀.bcast_S_S16x3x256 (constant (F := F) S_ .f32 0x48800000#32)))))
            (constant (F := F) S_ .f32 0x00000000#32) Facts₀.reducesTo_S16x3x256_S_d0_1_2 Facts₀.h_S_)
          (constant (F := F) S_ .f32 0x46400000#32) := by
  after_results; rfl

end Cert.KernelIdeal.Tail

end
-- ==== Proof.KI.Result.lean ====
/-
  The idealized kernel program's result: the loss of the two histograms.

  The first pallas_call leaves the histogram of the flattened first argument in its output array, the host divides
  it by the plane size; the second pallas_call does the same for the second argument; the last host stretch takes
  the mean absolute difference.  Read through the buffer contents at the segment boundaries this is
  `Cert.Spec.lossOf` of the two histograms.
-/
import proofs.«181613_j80625126080915_1_alg».proof.Proof.KI.Run
import proofs.«181613_j80625126080915_1_alg».proof.Proof.KI.Cover0
import proofs.«181613_j80625126080915_1_alg».proof.Proof.KI.Cover1
import proofs.«181613_j80625126080915_1_alg».proof.Proof.HostOps

noncomputable section

namespace Cert.KernelIdeal.Res

open Cert.KernelIdeal Cert.KernelIdeal.Gen Cert.KernelIdeal.Frm Cert.Spec
open Idealize.ShloMosaic Idealize.ShloMosaic.TcCoe Idealize.SL.Sem

variable (m : (ℓ : Loc nD τ sig) → Buf (Elt Ideal) ℓ)

/-- The first pallas_call's output array after the region: the histogram of the flattened first argument. -/
theorem W2_v1 (c : Dev nD) :
    W2 m c (Proc.devRef .tc main_v1)
      = hist (shapeCast SX (m ((c.tc : Thread nD τ).loc main_arg0)) Tail.castsX) := by
  refine (W2_arr m c 1).trans ?_
  refine (Cert.KernelIdeal.Val.arrAt0_1 (V1 m) c).trans ?_
  show hist (StableHlo.after hostOps0 (W0 m c) (Proc.devRef .tc main_v0)) = _
  rw [Tail.after0_v0]

/-- The second argument reaches the second host stretch as launched. -/
theorem W2_arg1 (c : Dev nD) : W2 m c (Proc.devRef .tc main_arg1) = m ((c.tc : Thread nD τ).loc main_arg1) := by
  refine (W2_of_ne m c main_arg1 (by decide)).trans ?_
  show StableHlo.after hostOps0 (W0 m c) (Proc.devRef .tc main_arg1) = _
  rw [Tail.after0_arg1]

/-- The second pallas_call's output array after the region: the histogram of the flattened second argument. -/
theorem W4_v6 (c : Dev nD) :
    W4 m c (Proc.devRef .tc main_v6)
      = hist (shapeCast SX (m ((c.tc : Thread nD τ).loc main_arg1)) Tail.castsX) := by
  refine (W4_arr m c 1).trans ?_
  refine (Cert.KernelIdeal.Val1.arrAt1_1 (V3 m) c).trans ?_
  show hist (StableHlo.after hostOps1 (W2 m c) (Proc.devRef .tc main_v5)) = _
  rw [Tail.after1_v5, W2_arg1]

/-- The first histogram, normalised, survives the second region. -/
theorem W4_v4 (c : Dev nD) :
    W4 m c (Proc.devRef .tc main_v4)
      = normHist (hist (shapeCast SX (m ((c.tc : Thread nD τ).loc main_arg0)) Tail.castsX)) := by
  refine (W4_of_ne m c main_v4 (by decide)).trans ?_
  show StableHlo.after hostOps1 (W2 m c) (Proc.devRef .tc main_v4) = _
  rw [Tail.after1_v4, W2_v1]; rfl

/-- The result buffer at the end of the run. -/
theorem result (c : Dev nD) :
    W5 m c (Proc.devRef .tc main_v13)
      = lossOf (hist (shapeCast SX (m ((c.tc : Thread nD τ).loc main_arg0)) Tail.castsX))
          (hist (shapeCast SX (m ((c.tc : Thread nD τ).loc main_arg1)) Tail.castsX)) := by
  show StableHlo.after hostOps2 (W4 m c) (Proc.devRef .tc main_v13) = _
  rw [Tail.after2_v13, W4_v4, W4_v6]; rfl

end Cert.KernelIdeal.Res

end
-- ==== Proof.RefValue.lean ====
/-
  The reference's result at the extended reals is the loss of the two histograms of Spec.lean.

  The reference clamps 255·x to [0, 255] (the bounds converted from the integers 0 and 255), truncates, adds
  256·plane to each pixel's bin, and scatter-adds 1.0 at that flat position into 12288 zeros; read at position
  r·256 + k this is the number of pixels of plane r in bin k (every bin is below 256, so no pixel of another plane
  lands there, and no index is negative or out of range).  The rest — reshape, divide by 262144, subtract, absolute
  value, sum, divide by 12288 — is `Cert.Spec.lossOf`.
-/
import proofs.«181613_j80625126080915_1_alg».proof.Proof.Gen.ReferenceIdeal.Run
import proofs.«181613_j80625126080915_1_alg».proof.Proof.Gen.ReferenceIdeal.Read
import proofs.«181613_j80625126080915_1_alg».proof.Proof.SpecLaws
import Idealize.ShloMosaic.Lib.ValueIdx
import Idealize.ShloMosaic.Lib.IdealHost
import Idealize.ShloMosaic.Lib.StableHlo.Predicate
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- A flat position has one coordinate. -/
theorem coord_eq (j : S12582912.Idx) (a : Fin S12582912.rank) : (j a).val = (j 0).val := by
  have : a = 0 := Subsingleton.elim _ _
  rw [this]

/-- Update number j reads its start index at row j of the one-column index array. -/
theorem siIdx_eq (j : S12582912.Idx) (c : Fin scatter_S12288_S12582912x1_S12582912_n_0_0_1.scatterDimsToOperandDims.length) :
    scatter_S12288_S12582912x1_S12582912_n_0_0_1.siIdx j c = ix2 (j 0) (0 : Fin 1) := by
  funext b
  match b with
  | ⟨0, _⟩ =>
    apply Fin.ext
    simp [ScatterDims.siIdx, ScatterDims.siCoord, scatter_S12288_S12582912x1_S12582912_n_0_0_1]
    exact coord_eq j _
  | ⟨1, _⟩ =>
    apply Fin.ext
    simp [ScatterDims.siIdx, scatter_S12288_S12582912x1_S12582912_n_0_0_1]

/-- Update number j lands on position i exactly when the index it reads, as a signed word, is i: the window is a
    single element, and an index outside [0, 12288) lands nowhere. -/
theorem resultIdx_iff (idx : IVec S12582912x1 32) (j : S12582912.Idx) (i : S12288.Idx) :
    scatter_S12288_S12582912x1_S12582912_n_0_0_1.resultIdx? j idx = some i
      ↔ (idx (ix2 (j 0) (0 : Fin 1))).toInt = ((i 0).val : ℤ) := by
  have hstart : ∀ a : Fin S12288.rank, scatter_S12288_S12582912x1_S12582912_n_0_0_1.start j idx a = (idx (ix2 (j 0) (0 : Fin 1))).toInt := by
    intro a
    have ha : a = 0 := Subsingleton.elim _ _
    subst ha
    unfold ScatterDims.start
    rw [dif_pos (by simp [scatter_S12288_S12582912x1_S12582912_n_0_0_1])]
    rw [siIdx_eq]
    rfl
  have hwin : ∀ a : Fin S12288.rank, scatter_S12288_S12582912x1_S12582912_n_0_0_1.window j a = 0 := by
    intro a
    have ha : a = 0 := Subsingleton.elim _ _
    subst ha
    unfold ScatterDims.window
    rw [dif_neg (by simp [scatter_S12288_S12582912x1_S12582912_n_0_0_1, ScatterDims.sKept, Shape.kept])]
  have hi : (i 0).val < 12288 := (i 0).isLt
  generalize hT : (idx (ix2 (j 0) (0 : Fin 1))).toInt = T at hstart ⊢
  unfold ScatterDims.resultIdx?
  constructor
  · intro h
    split at h
    · rename_i hc
      have h1 := congrFun (Option.some.inj h) 0
      have h2 := congrArg Fin.val h1
      simp only [hstart, hwin] at h2 hc
      have := hc 0
      omega
    · exact absurd h (by simp)
  · intro h
    have hc : ∀ a : Fin S12288.rank, 0 ≤ scatter_S12288_S12582912x1_S12582912_n_0_0_1.start j idx a + (scatter_S12288_S12582912x1_S12582912_n_0_0_1.window j a : ℤ)
        ∧ scatter_S12288_S12582912x1_S12582912_n_0_0_1.start j idx a + (scatter_S12288_S12582912x1_S12582912_n_0_0_1.window j a : ℤ) < S12288.size a := by
      intro a
      have ha : a = 0 := Subsingleton.elim _ _
      subst ha
      rw [hstart, hwin]
      show 0 ≤ T + ((0 : ℕ) : ℤ) ∧ T + ((0 : ℕ) : ℤ) < ((12288 : ℕ) : ℤ)
      omega
    rw [dif_pos hc]
    congr 1
    funext a
    have ha : a = 0 := Subsingleton.elim _ _
    subst ha
    apply Fin.ext
    simp only [hstart, hwin]
    omega

/-- The reference's clamped, truncated pixel is the bin of the pixel. -/
theorem v3_eq (x : FVec Ideal S16x3x512x512 .f32) (p : S16x3x512x512.Idx) :
    val_main_v3 (F := Ideal) x p = Cert.Spec.bin (x p) := by
  rw [val_main_v3_apply, val_main_v2_apply, val_main_call0_v4_apply, val_main_call0_v3_apply, val_main_c_0_apply,
    val_main_call0_v2_apply, val_main_call0_v1_apply, val_main_call0_v0_apply, val_main_c_apply, val_main_v1_apply,
    val_main_v0_apply, val_main_cst_apply]
  unfold Cert.Spec.bin
  show Ideal.fptosi 32 (min ((((255#32 : BitVec 32).toInt : ℤ) : ℝ) : EReal)
    (max ((((0#32 : BitVec 32).toInt : ℤ) : ℝ) : EReal) (x p * Ideal.ofBits .f32 0x437F0000#32))) = _
  rw [Cert.Spec.ofBits_255]
  have h255 : ((255#32 : BitVec 32).toInt) = 255 := by decide
  have h0 : ((0#32 : BitVec 32).toInt) = 0 := by decide
  rw [h255, h0]
  simp only [Int.cast_ofNat, Int.cast_zero]

/-- The flat index before the wrap of negative indices: the pixel's bin plus 256 times its plane, as words. -/
theorem v11_eq (x : FVec Ideal S16x3x512x512 .f32) (j : S12582912.Idx) :
    val_main_v11 (F := Ideal) x j
      = Cert.Spec.bin (x (idx_main_v8 (idx_main_v11 j))) + BitVec.ofNat 32 ((j 0).val / 262144) * 256#32 := by
  rw [val_main_v11_apply, val_main_v10_apply, val_main_v8_apply, v3_eq, val_main_v9_apply, val_main_v7_apply,
    val_main_v5_apply, val_main_v4_apply, val_main_v6_apply, val_main_c_1_apply]
  rfl

/-- A bin below 256 plus 256 times a plane below 48 does not wrap. -/
theorem word_toNat (b : BitVec 32) (q : ℕ) (hb : b.toNat < 256) (hq : q < 48) :
    (b + BitVec.ofNat 32 q * 256#32).toNat = b.toNat + 256 * q := by
  simp only [BitVec.toNat_add, BitVec.toNat_mul, BitVec.toNat_ofNat, Nat.reducePow]
  omega

/-- The flattened argument read at (plane, pixel) is the argument at the row-major-equal index. -/
theorem X_apply (x : FVec Ideal S16x3x512x512 .f32) (q : S48x262144.Idx) :
    (shapeCast Cert.Spec.SX x (by decide) : FVec Ideal Cert.Spec.SX .f32) q = x (idx_main_v8 q) := by
  refine shapeCast_apply x _ q (idx_main_v8 q) ?_
  rewrite [Shape.rowMajor_val_four, Shape.rowMajor_val_two]
  have h0 : (q 0).val < 48 := (q 0).isLt
  have h1 : (q 1).val < 262144 := (q 1).isLt
  show ((((q 0).val * 262144 + (q 1).val) / 786432 * 3 + ((q 0).val * 262144 + (q 1).val) / 262144 % 3) * 512 + ((q 0).val * 262144 + (q 1).val) / 512 % 512) * 512 + ((q 0).val * 262144 + (q 1).val) % 512 = (q 0).val * 262144 + (q 1).val
  omega

/-- The scatter index of flat pixel n: its bin plus 256 times its plane, a natural number below 12288, read signed. -/
theorem v17_toInt (x : FVec Ideal S16x3x512x512 .f32) (j : S12582912.Idx) :
    (val_main_v17 (F := Ideal) x j).toInt
      = (((Cert.Spec.bin ((shapeCast Cert.Spec.SX x (by decide) : FVec Ideal Cert.Spec.SX .f32)
            (ix2 (⟨(j 0).val / 262144, by have := (j 0).isLt; change (j 0).val < 12582912 at this; omega⟩ : Fin 48)
                 (⟨(j 0).val % 262144, Nat.mod_lt _ (by norm_num)⟩ : Fin 262144)))).toNat
          + 256 * ((j 0).val / 262144) : ℕ) : ℤ) := by
  have hj : (j 0).val < 12582912 := (j 0).isLt
  have hq : (j 0).val / 262144 < 48 := by omega
  rw [X_apply]
  have hidx : idx_main_v11 j = ix2 (⟨(j 0).val / 262144, hq⟩ : Fin 48) (⟨(j 0).val % 262144, Nat.mod_lt _ (by norm_num)⟩ : Fin 262144) := by
    funext a; match a with | ⟨0, _⟩ => rfl | ⟨1, _⟩ => rfl
  rw [← hidx]
  have hb := Cert.Spec.bin_toNat_lt (x (idx_main_v8 (idx_main_v11 j)))
  have hn := word_toNat _ _ hb hq
  have h11 := v11_eq x j
  have hsel : val_main_v17 (F := Ideal) x j = val_main_v11 (F := Ideal) x j := by
    rw [val_main_v17_apply, val_main_v14_apply, val_main_v13_apply, val_main_c_3_apply]
    have hne : ¬ IntOp.cmpi .slt (val_main_v11 (F := Ideal) x j) 0#32 = 1#1 := by
      rw [StableHlo.Predicate.slt_iff_toNat (by rw [h11, hn]; omega) (by decide)]
      simp
    rw [eq_zero_of_ne_one hne, select_zero]
  rw [hsel, StableHlo.Predicate.toInt_eq_toNat_of_lt (by rw [h11, hn]; omega), h11, hn]

/-- Row j of the one-column index array is entry j of the flat index. -/
theorem idx18_eq (j : S12582912.Idx) : idx_main_v18 (ix2 (j 0) (0 : Fin 1)) = j := by
  funext a; match a with | ⟨0, _⟩ => rfl

/-- Flat positions are the numbers below 12582912. -/
def flatEquiv : S12582912.Idx ≃ Fin 12582912 where
  toFun j := j 0
  invFun n := ix1 n
  left_inv j := (eq_ix1 j).symm
  right_inv _ := rfl

/-- The accumulating scatter read at a position: the operand there plus the updates that land there. -/
theorem scatterAdd_apply {s si u : Shape} {w : Nat} (d : ScatterDims s si u) (v : FVec Ideal s .f32) (idx : IVec si w)
    (upd : FVec Ideal u .f32) (i : s.Idx) :
    Host.scatterAdd d v idx upd i
      = v i + ∑ j ∈ Finset.univ.filter (fun j => d.resultIdx? j idx = some i), upd j := rfl

/-- The operand of the scatter is zero everywhere. -/
theorem v12_eq (i : S12288.Idx) : val_main_v12 (F := Ideal) i = 0 := by
  rw [val_main_v12_apply, val_main_cst_2_apply, Ideal.ofBits_def, Cert.Spec.ofBits_zero, EReal.coe_zero]

/-- Every update is one. -/
theorem v19_eq (j : S12582912.Idx) : val_main_v19 (F := Ideal) j = 1 := by
  rw [val_main_v19_apply, val_main_cst_5_apply, Ideal.ofBits_def, Ideal.ofBits_one_f32]

/-- The index update j reads, as a signed word. -/
theorem v18_toInt (x : FVec Ideal S16x3x512x512 .f32) (j : S12582912.Idx) :
    (val_main_v18 (F := Ideal) x (ix2 (j 0) (0 : Fin 1))).toInt
      = (((Cert.Spec.bin ((shapeCast Cert.Spec.SX x (by decide) : FVec Ideal Cert.Spec.SX .f32)
            (ix2 (⟨(j 0).val / 262144, by have := (j 0).isLt; change (j 0).val < 12582912 at this; omega⟩ : Fin 48)
                 (⟨(j 0).val % 262144, Nat.mod_lt _ (by norm_num)⟩ : Fin 262144)))).toNat
          + 256 * ((j 0).val / 262144) : ℕ) : ℤ) := by
  rw [val_main_v18_apply, idx18_eq, v17_toInt]

/-- The scattered counts at flat position r·256 + k are the histogram entry (r, k). -/
theorem v20_eq (x : FVec Ideal S16x3x512x512 .f32) (r : Fin 48) (k : Fin 256) (i : S12288.Idx)
    (hi : (i 0).val = r.val * 256 + k.val) :
    val_main_v20 (F := Ideal) x i = Cert.Spec.hist (shapeCast Cert.Spec.SX x (by decide)) (ix2 r k) := by
  rewrite [Cert.Spec.hist_eq_flatCount]
  unfold val_main_v20
  rewrite [scatterAdd_apply, v12_eq, zero_add, Finset.sum_congr rfl (fun j _ => v19_eq j)]
  refine Finset.sum_equiv flatEquiv ?_ ?_
  · intro j
    simp only [Finset.mem_filter, Finset.mem_univ, true_and]
    rw [resultIdx_iff, v18_toInt, hi]
    constructor
    · intro h; exact_mod_cast h
    · intro h; exact_mod_cast h
  · intro j _
    rfl

/-- The scattered counts reshaped to (batch, channel, bin) are the histogram reshaped. -/
theorem v21_eq (x : FVec Ideal S16x3x512x512 .f32) :
    val_main_v21 (F := Ideal) x
      = shapeCast Cert.Spec.S3 (Cert.Spec.hist (shapeCast Cert.Spec.SX x (by decide))) (by decide) := by
  funext t
  have h0 : (t 0).val < 16 := (t 0).isLt
  have h1 : (t 1).val < 3 := (t 1).isLt
  have h2 : (t 2).val < 256 := (t 2).isLt
  rw [val_main_v21_apply,
    v20_eq x (⟨(t 0).val * 3 + (t 1).val, by omega⟩ : Fin 48) (⟨(t 2).val, h2⟩ : Fin 256) (idx_main_v21 t) rfl]
  symm
  refine shapeCast_apply _ _ t (ix2 (⟨(t 0).val * 3 + (t 1).val, by omega⟩ : Fin 48) (⟨(t 2).val, h2⟩ : Fin 256)) ?_
  rewrite [Shape.rowMajor_val_two, Shape.rowMajor_val_three]
  show ((t 0).val * 3 + (t 1).val) * 256 + (t 2).val = ((t 0).val * 3 + (t 1).val) * 256 + (t 2).val
  rfl

/-- The first normalised histogram. -/
theorem v23_eq (x : FVec Ideal S16x3x512x512 .f32) :
    val_main_v23 (F := Ideal) x = Cert.Spec.normHist (Cert.Spec.hist (shapeCast Cert.Spec.SX x (by decide))) := by
  unfold val_main_v23 Cert.Spec.normHist
  rewrite [v21_eq]
  rfl
/-- The second histogram's stages are the first's, letter for letter. -/
theorem v47_eq (x : FVec Ideal S16x3x512x512 .f32) : val_main_v47 (F := Ideal) x = val_main_v23 (F := Ideal) x := rfl

/-- The reference's composed result term, at the extended reals, is the loss of the histograms of the
    two flattened arguments. -/
theorem result_eq (x0 x1 : FVec Ideal S16x3x512x512 .f32) :
    val_main_v51 (F := Ideal) x0 x1
      = Cert.Spec.lossOf (Cert.Spec.hist (shapeCast Cert.Spec.SX x0 (by decide)))
          (Cert.Spec.hist (shapeCast Cert.Spec.SX x1 (by decide))) := by
  unfold val_main_v51 val_main_v50 val_main_v49 val_main_v48 Cert.Spec.lossOf
  rewrite [v47_eq x1, v23_eq x0, v23_eq x1]
  rfl

end Cert.ReferenceIdeal.RefValue

end
-- ==== Proof.lean ====
/-
  The certificate: a Pallas kernel that builds 256-bin histograms of two image batches by comparing every pixel's bin
  against the bin numbers and summing the hits tile by tile in an on-chip accumulator, against a reference that
  scatter-adds ones at the pixels' bins; both end with the mean absolute difference of the normalised histograms.

  Frames.  Each program's run is its five segments — a reshape, the first pallas_call, the first histogram's
  normalisation and a reshape, the second pallas_call, the closing host operations — launched together; every
  unscoped buffer is named at the end, so the arguments are read back unchanged.  The reference has no kernel: its
  frame is its run with the result dropped.
  Idealization.  The ideal pass rewrote nothing, so there is nothing to preserve.
  Values.  At the extended reals a pixel's bin is the same word on both sides; a histogram entry is a sum of ones over
  the plane's pixels, which the kernel reaches by adding 128 tile counts and the reference by counting the flat
  positions r·256 + k hit by bin + 256·plane (every bin is below 256); the closing operations are the same function.
-/
import proofs.«181613_j80625126080915_1_alg».proof.Defs
import proofs.«181613_j80625126080915_1_alg».proof.Proof.Gen.Kernel
import proofs.«181613_j80625126080915_1_alg».proof.Proof.Gen.KernelIdeal
import proofs.«181613_j80625126080915_1_alg».proof.Proof.Gen.ReferenceIdeal
import proofs.«181613_j80625126080915_1_alg».proof.Proof.Gen.Pre_finite_inputs
import proofs.«181613_j80625126080915_1_alg».proof.Proof.Gen.ReferenceIdeal.Run
import proofs.«181613_j80625126080915_1_alg».proof.Proof.Gen.ReferenceIdeal.Read
import proofs.«181613_j80625126080915_1_alg».proof.Proof.K.Run
import proofs.«181613_j80625126080915_1_alg».proof.Proof.KI.Result
import proofs.«181613_j80625126080915_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the loss of the histograms of the two flattened arguments. -/
theorem algebraic : Cert.algebraic_KernelIdeal_ReferenceIdeal := by
  intro m ρ m' ρ' _ hagree
  refine ⟨fun c => Cert.Spec.lossOf
      (Cert.Spec.hist (shapeCast Cert.Spec.SX (m ((c.tc : Thread Cert.KernelIdeal.nD Cert.KernelIdeal.τ).loc Cert.KernelIdeal.main_arg0)) Cert.KernelIdeal.Tail.castsX))
      (Cert.Spec.hist (shapeCast Cert.Spec.SX (m ((c.tc : Thread Cert.KernelIdeal.nD Cert.KernelIdeal.τ).loc Cert.KernelIdeal.main_arg1)) Cert.KernelIdeal.Tail.castsX)), ?_, ?_⟩
  · refine (θ_run Cert.KernelIdeal.defs _ _).mono (fun r h c => ⟨?_, ?_, ?_⟩) (Cert.KernelIdeal.Frm.run_all (F := Ideal) m ρ)
    · exact (h c _ (Cert.KernelIdeal.Frm.mem_uc Cert.KernelIdeal.main_v13 (by decide))).trans (Cert.KernelIdeal.Res.result m c)
    · exact (h c _ (Cert.KernelIdeal.Frm.mem_uc Cert.KernelIdeal.main_arg0 (by decide))).trans (Cert.KernelIdeal.Frm.W5_main_arg0 m c)
    · exact (h c _ (Cert.KernelIdeal.Frm.mem_uc Cert.KernelIdeal.main_arg1 (by decide))).trans (Cert.KernelIdeal.Frm.W5_main_arg1 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
